-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2000 : Shape := ⟨2, ![8192, 2000]⟩
abbrev S2000x2000 : Shape := ⟨2, ![2000, 2000]⟩
abbrev S2000 : Shape := ⟨1, ![2000]⟩
abbrev S_ : Shape := ⟨0, ![]⟩

class Facts : Prop where
  bcast_S_S8192x2000 : S_.BroadcastsInDim S8192x2000 (![] : Fin 0 → Fin S8192x2000.rank)
  reducesTo_S8192x2000_S_d0_1 : S8192x2000.ReducesTo [0, 1] S_
  h_S_ : 0 < S_.numel
  bcast_S_S2000x2000 : S_.BroadcastsInDim S2000x2000 (![] : Fin 0 → Fin S2000x2000.rank)
  reducesTo_S2000x2000_S_d0_1 : S2000x2000.ReducesTo [0, 1] S_
  bcast_S_S2000 : S_.BroadcastsInDim S2000 (![] : Fin 0 → Fin S2000.rank)
  reducesTo_S2000_S_d0 : S2000.ReducesTo [0] S_

variable [Facts]

def fn_part2 {F : FTy → Type} [FloatOps F] (main_arg7 : FVec F S2000x2000 .f32) (main_arg8 : FVec F S2000 .f32) (main_v33 : IVec S_ 1) : IVec S_ 1 :=
  let main_v34 : FVec F S2000x2000 .f32 := Host.absf main_arg7
  let main_cst_12 : FVec F S_ .f32 := constant S_ .f32 0x7F800000#32
  let main_v35 : FVec F S2000x2000 .f32 := broadcastInDim S2000x2000 ![] bcast_S_S2000x2000 main_cst_12
  let main_v36 : IVec S2000x2000 1 := cmpf .olt main_v34 main_v35
  let main_c_13 : IVec S_ 1 := constantI S_ 1 1#1
  let main_v37 : IVec S_ 1 := (fun x v => Host.reduce IntOp.andi x v reducesTo_S2000x2000_S_d0_1 h_S_) main_v36 main_c_13
  let main_v38 : IVec S_ 1 := andi main_v33 main_v37
  let main_v39 : FVec F S2000 .f32 := Host.absf main_arg8
  let main_cst_14 : FVec F S_ .f32 := constant S_ .f32 0x7F800000#32
  let main_v40 : FVec F S2000 .f32 := broadcastInDim S2000 ![] bcast_S_S2000 main_cst_14
  let main_v41 : IVec S2000 1 := cmpf .olt main_v39 main_v40
  let main_c_15 : IVec S_ 1 := constantI S_ 1 1#1
  let main_v42 : IVec S_ 1 := (fun x v => Host.reduce IntOp.andi x v reducesTo_S2000_S_d0 h_S_) main_v41 main_c_15
  let main_v43 : IVec S_ 1 := andi main_v38 main_v42
  main_v43

def fn_part1 {F : FTy → Type} [FloatOps F] (main_arg4 : FVec F S2000 .f32) (main_arg5 : FVec F S2000x2000 .f32) (main_arg6 : FVec F S2000 .f32) (main_arg7 : FVec F S2000x2000 .f32) (main_arg8 : FVec F S2000 .f32) (main_v13 : IVec S_ 1) (main_v16 : IVec S2000x2000 1) : IVec S_ 1 :=
  let main_c_5 : IVec S_ 1 := constantI S_ 1 1#1
  let main_v17 : IVec S_ 1 := (fun x v => Host.reduce IntOp.andi x v reducesTo_S2000x2000_S_d0_1 h_S_) main_v16 main_c_5
  let main_v18 : IVec S_ 1 := andi main_v13 main_v17
  let main_v19 : FVec F S2000 .f32 := Host.absf main_arg4
  let main_cst_6 : FVec F S_ .f32 := constant S_ .f32 0x7F800000#32
  let main_v20 : FVec F S2000 .f32 := broadcastInDim S2000 ![] bcast_S_S2000 main_cst_6
  let main_v21 : IVec S2000 1 := cmpf .olt main_v19 main_v20
  let main_c_7 : IVec S_ 1 := constantI S_ 1 1#1
  let main_v22 : IVec S_ 1 := (fun x v => Host.reduce IntOp.andi x v reducesTo_S2000_S_d0 h_S_) main_v21 main_c_7
  let main_v23 : IVec S_ 1 := andi main_v18 main_v22
  let main_v24 : FVec F S2000x2000 .f32 := Host.absf main_arg5
  let main_cst_8 : FVec F S_ .f32 := constant S_ .f32 0x7F800000#32
  let main_v25 : FVec F S2000x2000 .f32 := broadcastInDim S2000x2000 ![] bcast_S_S2000x2000 main_cst_8
  let main_v26 : IVec S2000x2000 1 := cmpf .olt main_v24 main_v25
  let main_c_9 : IVec S_ 1 := constantI S_ 1 1#1
  let main_v27 : IVec S_ 1 := (fun x v => Host.reduce IntOp.andi x v reducesTo_S2000x2000_S_d0_1 h_S_) main_v26 main_c_9
  let main_v28 : IVec S_ 1 := andi main_v23 main_v27
  let main_v29 : FVec F S2000 .f32 := Host.absf main_arg6
  let main_cst_10 : FVec F S_ .f32 := constant S_ .f32 0x7F800000#32
  let main_v30 : FVec F S2000 .f32 := broadcastInDim S2000 ![] bcast_S_S2000 main_cst_10
  let main_v31 : IVec S2000 1 := cmpf .olt main_v29 main_v30
  let main_c_11 : IVec S_ 1 := constantI S_ 1 1#1
  let main_v32 : IVec S_ 1 := (fun x v => Host.reduce IntOp.andi x v reducesTo_S2000_S_d0 h_S_) main_v31 main_c_11
  let main_v33 : IVec S_ 1 := andi main_v28 main_v32
  fn_part2 (F := F) main_arg7 main_arg8 main_v33

def fn {F : FTy → Type} [FloatOps F] (main_arg0 : FVec F S8192x2000 .f32) (main_arg1 : FVec F S8192x2000 .f32) (main_arg2 : FVec F S8192x2000 .f32) (main_arg3 : FVec F S2000x2000 .f32) (main_arg4 : FVec F S2000 .f32) (main_arg5 : FVec F S2000x2000 .f32) (main_arg6 : FVec F S2000 .f32) (main_arg7 : FVec F S2000x2000 .f32) (main_arg8 : FVec F S2000 .f32) : IVec S_ 1 :=
  let main_v0 : FVec F S8192x2000 .f32 := Host.absf main_arg0
  let main_cst : FVec F S_ .f32 := constant S_ .f32 0x7F800000#32
  let main_v1 : FVec F S8192x2000 .f32 := broadcastInDim S8192x2000 ![] bcast_S_S8192x2000 main_cst
  let main_v2 : IVec S8192x2000 1 := cmpf .olt main_v0 main_v1
  let main_c : IVec S_ 1 := constantI S_ 1 1#1
  let main_v3 : IVec S_ 1 := (fun x v => Host.reduce IntOp.andi x v reducesTo_S8192x2000_S_d0_1 h_S_) main_v2 main_c
  let main_v4 : FVec F S8192x2000 .f32 := Host.absf main_arg1
  let main_cst_0 : FVec F S_ .f32 := constant S_ .f32 0x7F800000#32
  let main_v5 : FVec F S8192x2000 .f32 := broadcastInDim S8192x2000 ![] bcast_S_S8192x2000 main_cst_0
  let main_v6 : IVec S8192x2000 1 := cmpf .olt main_v4 main_v5
  let main_c_1 : IVec S_ 1 := constantI S_ 1 1#1
  let main_v7 : IVec S_ 1 := (fun x v => Host.reduce IntOp.andi x v reducesTo_S8192x2000_S_d0_1 h_S_) main_v6 main_c_1
  let main_v8 : IVec S_ 1 := andi main_v3 main_v7
  let main_v9 : FVec F S8192x2000 .f32 := Host.absf main_arg2
  let main_cst_2 : FVec F S_ .f32 := constant S_ .f32 0x7F800000#32
  let main_v10 : FVec F S8192x2000 .f32 := broadcastInDim S8192x2000 ![] bcast_S_S8192x2000 main_cst_2
  let main_v11 : IVec S8192x2000 1 := cmpf .olt main_v9 main_v10
  let main_c_3 : IVec S_ 1 := constantI S_ 1 1#1
  let main_v12 : IVec S_ 1 := (fun x v => Host.reduce IntOp.andi x v reducesTo_S8192x2000_S_d0_1 h_S_) main_v11 main_c_3
  let main_v13 : IVec S_ 1 := andi main_v8 main_v12
  let main_v14 : FVec F S2000x2000 .f32 := Host.absf main_arg3
  let main_cst_4 : FVec F S_ .f32 := constant S_ .f32 0x7F800000#32
  let main_v15 : FVec F S2000x2000 .f32 := broadcastInDim S2000x2000 ![] bcast_S_S2000x2000 main_cst_4
  let main_v16 : IVec S2000x2000 1 := cmpf .olt main_v14 main_v15
  fn_part1 (F := F) main_arg4 main_arg5 main_arg6 main_arg7 main_arg8 main_v13 main_v16
-- ==== Kernel.lean ====
abbrev S8192x2000 : Shape := ⟨2, ![8192, 2000]⟩
abbrev S2000x2000 : Shape := ⟨2, ![2000, 2000]⟩
abbrev S2000 : Shape := ⟨1, ![2000]⟩
abbrev S1x2000 : Shape := ⟨2, ![1, 2000]⟩
abbrev S128x2000 : Shape := ⟨2, ![128, 2000]⟩
abbrev S128 : Shape := ⟨1, ![128]⟩
abbrev S128x1 : Shape := ⟨2, ![128, 1]⟩

abbrev nBuf : Space → Nat
  | .hbm => 19
  | .vmem => 14
  | .smem => 0
  | _ => 0

abbrev bufTy : (tb : Table) → Fin (tcTables nBuf tb) → BufTy
  | .hbm, ⟨0, _⟩ => ⟨S8192x2000, .f32⟩
  | .hbm, ⟨1, _⟩ => ⟨S8192x2000, .f32⟩
  | .hbm, ⟨2, _⟩ => ⟨S8192x2000, .f32⟩
  | .hbm, ⟨3, _⟩ => ⟨S2000x2000, .f32⟩
  | .hbm, ⟨4, _⟩ => ⟨S2000, .f32⟩
  | .hbm, ⟨5, _⟩ => ⟨S2000x2000, .f32⟩
  | .hbm, ⟨6, _⟩ => ⟨S2000, .f32⟩
  | .hbm, ⟨7, _⟩ => ⟨S2000x2000, .f32⟩
  | .hbm, ⟨8, _⟩ => ⟨S2000, .f32⟩
  | .hbm, ⟨9, _⟩ => ⟨S2000x2000, .f32⟩
  | .hbm, ⟨10, _⟩ => ⟨S2000x2000, .bf16⟩
  | .hbm, ⟨11, _⟩ => ⟨S2000x2000, .f32⟩
  | .hbm, ⟨12, _⟩ => ⟨S2000x2000, .bf16⟩
  | .hbm, ⟨13, _⟩ => ⟨S2000x2000, .f32⟩
  | .hbm, ⟨14, _⟩ => ⟨S2000x2000, .bf16⟩
  | .hbm, ⟨15, _⟩ => ⟨S1x2000, .f32⟩
  | .hbm, ⟨16, _⟩ => ⟨S1x2000, .f32⟩
  | .hbm, ⟨17, _⟩ => ⟨S1x2000, .f32⟩
  | .hbm, ⟨18, _⟩ => ⟨S8192x2000, .f32⟩
  | .local _ .vmem, ⟨0, _⟩ => ⟨S128x2000, .f32⟩
  | .local _ .vmem, ⟨1, _⟩ => ⟨S128x2000, .f32⟩
  | .local _ .vmem, ⟨2, _⟩ => ⟨S128x2000, .f32⟩
  | .local _ .vmem, ⟨3, _⟩ => ⟨S128x2000, .f32⟩
  | .local _ .vmem, ⟨4, _⟩ => ⟨S128x2000, .f32⟩
  | .local _ .vmem, ⟨5, _⟩ => ⟨S128x2000, .f32⟩
  | .local _ .vmem, ⟨6, _⟩ => ⟨S2000x2000, .bf16⟩
  | .local _ .vmem, ⟨7, _⟩ => ⟨S1x2000, .f32⟩
  | .local _ .vmem, ⟨8, _⟩ => ⟨S2000x2000, .bf16⟩
  | .local _ .vmem, ⟨9, _⟩ => ⟨S1x2000, .f32⟩
  | .local _ .vmem, ⟨10, _⟩ => ⟨S2000x2000, .bf16⟩
  | .local _ .vmem, ⟨11, _⟩ => ⟨S1x2000, .f32⟩
  | .local _ .vmem, ⟨12, _⟩ => ⟨S128x2000, .f32⟩
  | .local _ .vmem, ⟨13, _⟩ => ⟨S128x2000, .f32⟩
  | _, _ => ⟨S8192x2000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2000x2000 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2000 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2000x2000 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2000 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2000x2000 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2000 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x2000 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  transposes_S2000x2000_S2000x2000_1_0 : S2000x2000.Transposes [1, 0] S2000x2000
  bitsLt_bf16_f32 : FTy.bits .bf16 < FTy.bits .f32
  shapeCasts_S2000_S1x2000 : S2000.ShapeCasts S1x2000
  inb_S128x2000_S128x2000_0_0 : ∀ a, (![0, 0] : Fin 2 → Nat) a + S128x2000.size a ≤ S128x2000.size a
  h_S128x2000 : 0 < S128x2000.numel
  reduces_S128x2000_S128 : S128x2000.Reduces [1] S128
  shapeCasts_S128_S128x1 : S128.ShapeCasts S128x1
  broadcasts_S128x1_S128x2000 : S128x1.Broadcasts S128x2000
  inb_S2000x2000_S2000x2000_0_0 : ∀ a, (![0, 0] : Fin 2 → Nat) a + S2000x2000.size a ≤ S2000x2000.size a
  h_S2000x2000 : 0 < S2000x2000.numel
  shapeCasts_S2000x2000_S2000x2000 : S2000x2000.ShapeCasts S2000x2000
  inb_S1x2000_S1x2000_0_0 : ∀ a, (![0, 0] : Fin 2 → Nat) a + S1x2000.size a ≤ S1x2000.size a
  h_S1x2000 : 0 < S1x2000.numel
  shapeCasts_S1x2000_S1x2000 : S1x2000.ShapeCasts S1x2000
  broadcasts_S1x2000_S128x2000 : S1x2000.Broadcasts S128x2000
  dot_S128x2000_S2000x2000_S128x2000_1_0_0_1_n_n_wf : DotDims.WF S128x2000 S2000x2000 S128x2000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2000.size a ≤ S8192x2000.size a
  hwx0_0 : ∀ i : grid0.Coords, EltTy.bits .f32 = 32 ∨ (Rect.block (s := S8192x2000) S128x2000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x2000.size a ≤ S8192x2000.size a
  hwx0_1 : ∀ i : grid0.Coords, EltTy.bits .f32 = 32 ∨ (Rect.block (s := S8192x2000) S128x2000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x2000.size a ≤ S8192x2000.size a
  hwx0_2 : ∀ i : grid0.Coords, EltTy.bits .f32 = 32 ∨ (Rect.block (s := S8192x2000) S128x2000.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2000x2000.size a ≤ S2000x2000.size a
  hwx0_3 : ∀ i : grid0.Coords, EltTy.bits .bf16 = 32 ∨ (Rect.block (s := S2000x2000) S2000x2000.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2000.size a ≤ S1x2000.size a
  hwx0_4 : ∀ i : grid0.Coords, EltTy.bits .f32 = 32 ∨ (Rect.block (s := S1x2000) S1x2000.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2000x2000.size a ≤ S2000x2000.size a
  hwx0_5 : ∀ i : grid0.Coords, EltTy.bits .bf16 = 32 ∨ (Rect.block (s := S2000x2000) S2000x2000.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2000.size a ≤ S1x2000.size a
  hwx0_6 : ∀ i : grid0.Coords, EltTy.bits .f32 = 32 ∨ (Rect.block (s := S1x2000) S1x2000.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2000x2000.size a ≤ S2000x2000.size a
  hwx0_7 : ∀ i : grid0.Coords, EltTy.bits .bf16 = 32 ∨ (Rect.block (s := S2000x2000) S2000x2000.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x2000.size a ≤ S1x2000.size a
  hwx0_8 : ∀ i : grid0.Coords, EltTy.bits .f32 = 32 ∨ (Rect.block (s := S1x2000) S1x2000.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S128x2000.size a ≤ S8192x2000.size a
  hwx0_9 : ∀ i : grid0.Coords, EltTy.bits .f32 = 32 ∨ (Rect.block (s := S8192x2000) S128x2000.size (cc0_transform_9 i) (hinb0_9 i)).WholeWords (EltTy.packing .f32)

variable [Facts₀]

def dot_S128x2000_S2000x2000_S128x2000_1_0_0_1_n_n : DotDims S128x2000 S2000x2000 S128x2000 where
  lhsContracting := [1]
  rhsContracting := [0]
  lhsNonContracting := [0]
  rhsNonContracting := [1]
  lhsBatch := []
  rhsBatch := []
  wf := dot_S128x2000_S2000x2000_S128x2000_1_0_0_1_n_n_wf

abbrev win0_0 : Pipeline.Window sig grid0 :=
  Pipeline.Window.ofSpec (Memref.whole main_arg0) S128x2000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x2000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x2000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2000x2000.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x2000.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S2000x2000.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x2000.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S2000x2000.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S1x2000.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9) S128x2000.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S8192x2000 : Shape := ⟨2, ![8192, 2000]⟩
abbrev S2000x2000 : Shape := ⟨2, ![2000, 2000]⟩
abbrev S2000 : Shape := ⟨1, ![2000]⟩
abbrev S_ : Shape := ⟨0, ![]⟩
abbrev S8192 : Shape := ⟨1, ![8192]⟩
abbrev S8192x1 : Shape := ⟨2, ![8192, 1]⟩
abbrev S1x2000 : Shape := ⟨2, ![1, 2000]⟩

abbrev nBuf : Space → Nat
  | .hbm => 147
  | .vmem => 0
  | .smem => 0
  | _ => 0

abbrev hbmTy0_0 (i : Nat) : BufTy := match i % 128 with
  | 0 => ⟨S8192x2000, .f32⟩
  | 1 => ⟨S8192x2000, .f32⟩
  | 2 => ⟨S8192x2000, .f32⟩
  | 3 => ⟨S2000x2000, .f32⟩
  | 4 => ⟨S2000, .f32⟩
  | 5 => ⟨S2000x2000, .f32⟩
  | 6 => ⟨S2000, .f32⟩
  | 7 => ⟨S2000x2000, .f32⟩
  | 8 => ⟨S2000, .f32⟩
  | 9 => ⟨S_, .f32⟩
  | 10 => ⟨S8192, .f32⟩
  | 11 => ⟨S8192x1, .f32⟩
  | 12 => ⟨S_, .f32⟩
  | 13 => ⟨S8192x1, .f32⟩
  | 14 => ⟨S8192x1, .f32⟩
  | 15 => ⟨S_, .i32⟩
  | 16 => ⟨S_, .f32⟩
  | 17 => ⟨S8192, .f32⟩
  | 18 => ⟨S8192x1, .f32⟩
  | 19 => ⟨S_, .f32⟩
  | 20 => ⟨S8192x1, .f32⟩
  | 21 => ⟨S8192x1, .f32⟩
  | 22 => ⟨S8192x2000, .f32⟩
  | 23 => ⟨S8192x2000, .f32⟩
  | 24 => ⟨S8192x2000, .f32⟩
  | 25 => ⟨S_, .f32⟩
  | 26 => ⟨S_, .f32⟩
  | 27 => ⟨S_, .f32⟩
  | 28 => ⟨S_, .f32⟩
  | 29 => ⟨S8192, .f32⟩
  | 30 => ⟨S8192x1, .f32⟩
  | 31 => ⟨S8192x1, .f32⟩
  | 32 => ⟨S8192x1, .f32⟩
  | 33 => ⟨S_, .f32⟩
  | 34 => ⟨S_, .i1⟩
  | 35 => ⟨S_, .f32⟩
  | 36 => ⟨S_, .f32⟩
  | 37 => ⟨S8192x1, .f32⟩
  | 38 => ⟨S8192x1, .f32⟩
  | 39 => ⟨S8192x1, .f32⟩
  | 40 => ⟨S8192x2000, .f32⟩
  | 41 => ⟨S8192x2000, .f32⟩
  | 42 => ⟨S_, .f32⟩
  | 43 => ⟨S8192x1, .f32⟩
  | 44 => ⟨S8192x1, .f32⟩
  | 45 => ⟨S8192x2000, .f32⟩
  | 46 => ⟨S8192x2000, .f32⟩
  | 47 => ⟨S_, .f32⟩
  | 48 => ⟨S8192, .f32⟩
  | 49 => ⟨S8192x1, .f32⟩
  | 50 => ⟨S_, .f32⟩
  | 51 => ⟨S8192x1, .f32⟩
  | 52 => ⟨S8192x1, .f32⟩
  | 53 => ⟨S_, .i32⟩
  | 54 => ⟨S_, .f32⟩
  | 55 => ⟨S8192, .f32⟩
  | 56 => ⟨S8192x1, .f32⟩
  | 57 => ⟨S_, .f32⟩
  | 58 => ⟨S8192x1, .f32⟩
  | 59 => ⟨S8192x1, .f32⟩
  | 60 => ⟨S8192x2000, .f32⟩
  | 61 => ⟨S8192x2000, .f32⟩
  | 62 => ⟨S8192x2000, .f32⟩
  | 63 => ⟨S_, .f32⟩
  | 64 => ⟨S_, .f32⟩
  | 65 => ⟨S_, .f32⟩
  | 66 => ⟨S_, .f32⟩
  | 67 => ⟨S8192, .f32⟩
  | 68 => ⟨S8192x1, .f32⟩
  | 69 => ⟨S8192x1, .f32⟩
  | 70 => ⟨S8192x1, .f32⟩
  | 71 => ⟨S_, .f32⟩
  | 72 => ⟨S_, .i1⟩
  | 73 => ⟨S_, .f32⟩
  | 74 => ⟨S_, .f32⟩
  | 75 => ⟨S8192x1, .f32⟩
  | 76 => ⟨S8192x1, .f32⟩
  | 77 => ⟨S8192x1, .f32⟩
  | 78 => ⟨S8192x2000, .f32⟩
  | 79 => ⟨S8192x2000, .f32⟩
  | 80 => ⟨S_, .f32⟩
  | 81 => ⟨S8192x1, .f32⟩
  | 82 => ⟨S8192x1, .f32⟩
  | 83 => ⟨S8192x2000, .f32⟩
  | 84 => ⟨S8192x2000, .f32⟩
  | 85 => ⟨S_, .f32⟩
  | 86 => ⟨S8192, .f32⟩
  | 87 => ⟨S8192x1, .f32⟩
  | 88 => ⟨S_, .f32⟩
  | 89 => ⟨S8192x1, .f32⟩
  | 90 => ⟨S8192x1, .f32⟩
  | 91 => ⟨S_, .i32⟩
  | 92 => ⟨S_, .f32⟩
  | 93 => ⟨S8192, .f32⟩
  | 94 => ⟨S8192x1, .f32⟩
  | 95 => ⟨S_, .f32⟩
  | 96 => ⟨S8192x1, .f32⟩
  | 97 => ⟨S8192x1, .f32⟩
  | 98 => ⟨S8192x2000, .f32⟩
  | 99 => ⟨S8192x2000, .f32⟩
  | 100 => ⟨S8192x2000, .f32⟩
  | 101 => ⟨S_, .f32⟩
  | 102 => ⟨S_, .f32⟩
  | 103 => ⟨S_, .f32⟩
  | 104 => ⟨S_, .f32⟩
  | 105 => ⟨S8192, .f32⟩
  | 106 => ⟨S8192x1, .f32⟩
  | 107 => ⟨S8192x1, .f32⟩
  | 108 => ⟨S8192x1, .f32⟩
  | 109 => ⟨S_, .f32⟩
  | 110 => ⟨S_, .i1⟩
  | 111 => ⟨S_, .f32⟩
  | 112 => ⟨S_, .f32⟩
  | 113 => ⟨S8192x1, .f32⟩
  | 114 => ⟨S8192x1, .f32⟩
  | 115 => ⟨S8192x1, .f32⟩
  | 116 => ⟨S8192x2000, .f32⟩
  | 117 => ⟨S8192x2000, .f32⟩
  | 118 => ⟨S_, .f32⟩
  | 119 => ⟨S8192x1, .f32⟩
  | 120 => ⟨S8192x1, .f32⟩
  | 121 => ⟨S8192x2000, .f32⟩
  | 122 => ⟨S8192x2000, .f32⟩
  | 123 => ⟨S8192x2000, .f32⟩
  | 124 => ⟨S1x2000, .f32⟩
  | 125 => ⟨S8192x2000, .f32⟩
  | 126 => ⟨S8192x2000, .f32⟩
  | 127 => ⟨S8192x2000, .f32⟩
  | _ => ⟨S8192x2000, .f32⟩

abbrev hbmTy0_1 (i : Nat) : BufTy := match i % 128 with
  | 0 => ⟨S8192x2000, .f32⟩
  | 1 => ⟨S1x2000, .f32⟩
  | 2 => ⟨S8192x2000, .f32⟩
  | 3 => ⟨S8192x2000, .f32⟩
  | 4 => ⟨S8192x2000, .f32⟩
  | 5 => ⟨S8192x2000, .f32⟩
  | 6 => ⟨S1x2000, .f32⟩
  | 7 => ⟨S8192x2000, .f32⟩
  | 8 => ⟨S8192x2000, .f32⟩
  | 9 => ⟨S_, .f32⟩
  | 10 => ⟨S8192x2000, .f32⟩
  | 11 => ⟨S8192x2000, .f32⟩
  | 12 => ⟨S_, .f32⟩
  | 13 => ⟨S8192x2000, .f32⟩
  | 14 => ⟨S8192x2000, .f32⟩
  | 15 => ⟨S_, .f32⟩
  | 16 => ⟨S8192x2000, .f32⟩
  | 17 => ⟨S8192x2000, .f32⟩
  | 18 => ⟨S8192x2000, .f32⟩
  | _ => ⟨S8192x2000, .f32⟩

abbrev hbmTy (i : Nat) : BufTy := match i / 128 with
  | 0 => hbmTy0_0 i
  | 1 => hbmTy0_1 i
  | _ => ⟨S8192x2000, .f32⟩

abbrev bufTy : (tb : Table) → Fin (tcTables nBuf tb) → BufTy
  | .hbm, ⟨i, _⟩ => hbmTy i
  | _, _ => ⟨S8192x2000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_call0_call0_cst : Ref sig .tc := ⟨.hbm, 16, rfl⟩
abbrev main_call0_call0_v0 : Ref sig .tc := ⟨.hbm, 17, rfl⟩
abbrev main_call0_call0_v1 : Ref sig .tc := ⟨.hbm, 18, rfl⟩
abbrev main_call0_call0_cst_0 : Ref sig .tc := ⟨.hbm, 19, rfl⟩
abbrev main_call0_call0_v2 : Ref sig .tc := ⟨.hbm, 20, rfl⟩
abbrev main_call0_call0_v3 : Ref sig .tc := ⟨.hbm, 21, rfl⟩
abbrev main_call0_call0_v4 : Ref sig .tc := ⟨.hbm, 22, rfl⟩
abbrev main_call0_call0_v5 : Ref sig .tc := ⟨.hbm, 23, rfl⟩
abbrev main_call0_call0_v6 : Ref sig .tc := ⟨.hbm, 24, rfl⟩
abbrev main_call0_call0_v7 : Ref sig .tc := ⟨.hbm, 25, rfl⟩
abbrev main_call0_call0_cst_1 : Ref sig .tc := ⟨.hbm, 26, rfl⟩
abbrev main_call0_call0_v8 : Ref sig .tc := ⟨.hbm, 27, rfl⟩
abbrev main_call0_call0_cst_2 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_call0_v12 : Ref sig .tc := ⟨.hbm, 32, rfl⟩
abbrev main_call0_call0_cst_3 : Ref sig .tc := ⟨.hbm, 33, rfl⟩
abbrev main_call0_call0_v13 : Ref sig .tc := ⟨.hbm, 34, rfl⟩
abbrev main_call0_call0_cst_4 : Ref sig .tc := ⟨.hbm, 35, rfl⟩
abbrev main_call0_call0_call0_v0 : Ref sig .tc := ⟨.hbm, 36, rfl⟩
abbrev main_call0_call0_call0_v1 : Ref sig .tc := ⟨.hbm, 37, rfl⟩
abbrev main_call0_v0 : Ref sig .tc := ⟨.hbm, 38, rfl⟩
abbrev main_v4 : Ref sig .tc := ⟨.hbm, 39, rfl⟩
abbrev main_v5 : Ref sig .tc := ⟨.hbm, 40, rfl⟩
abbrev main_v6 : Ref sig .tc := ⟨.hbm, 41, rfl⟩
abbrev main_cst_1 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_cst_2 : Ref sig .tc := ⟨.hbm, 47, rfl⟩
abbrev main_v11 : Ref sig .tc := ⟨.hbm, 48, rfl⟩
abbrev main_v12 : Ref sig .tc := ⟨.hbm, 49, rfl⟩
abbrev main_cst_3 : Ref sig .tc := ⟨.hbm, 50, rfl⟩
abbrev main_v13 : Ref sig .tc := ⟨.hbm, 51, rfl⟩
abbrev main_v14 : Ref sig .tc := ⟨.hbm, 52, rfl⟩
abbrev main_c_4 : Ref sig .tc := ⟨.hbm, 53, rfl⟩
abbrev main_call1_call0_cst : Ref sig .tc := ⟨.hbm, 54, rfl⟩
abbrev main_call1_call0_v0 : Ref sig .tc := ⟨.hbm, 55, rfl⟩
abbrev main_call1_call0_v1 : Ref sig .tc := ⟨.hbm, 56, rfl⟩
abbrev main_call1_call0_cst_0 : Ref sig .tc := ⟨.hbm, 57, rfl⟩
abbrev main_call1_call0_v2 : Ref sig .tc := ⟨.hbm, 58, rfl⟩
abbrev main_call1_call0_v3 : Ref sig .tc := ⟨.hbm, 59, rfl⟩
abbrev main_call1_call0_v4 : Ref sig .tc := ⟨.hbm, 60, rfl⟩
abbrev main_call1_call0_v5 : Ref sig .tc := ⟨.hbm, 61, rfl⟩
abbrev main_call1_call0_v6 : Ref sig .tc := ⟨.hbm, 62, rfl⟩
abbrev main_call1_call0_v7 : Ref sig .tc := ⟨.hbm, 63, rfl⟩
abbrev main_call1_call0_cst_1 : Ref sig .tc := ⟨.hbm, 64, rfl⟩
abbrev main_call1_call0_v8 : Ref sig .tc := ⟨.hbm, 65, rfl⟩
abbrev main_call1_call0_cst_2 : Ref sig .tc := ⟨.hbm, 66, rfl⟩
abbrev main_call1_call0_v9 : Ref sig .tc := ⟨.hbm, 67, rfl⟩
abbrev main_call1_call0_v10 : Ref sig .tc := ⟨.hbm, 68, rfl⟩
abbrev main_call1_call0_v11 : Ref sig .tc := ⟨.hbm, 69, rfl⟩
abbrev main_call1_call0_v12 : Ref sig .tc := ⟨.hbm, 70, rfl⟩
abbrev main_call1_call0_cst_3 : Ref sig .tc := ⟨.hbm, 71, rfl⟩
abbrev main_call1_call0_v13 : Ref sig .tc := ⟨.hbm, 72, rfl⟩
abbrev main_call1_call0_cst_4 : Ref sig .tc := ⟨.hbm, 73, rfl⟩
abbrev main_call1_call0_call0_v0 : Ref sig .tc := ⟨.hbm, 74, rfl⟩
abbrev main_call1_call0_call0_v1 : Ref sig .tc := ⟨.hbm, 75, rfl⟩
abbrev main_call1_v0 : Ref sig .tc := ⟨.hbm, 76, rfl⟩
abbrev main_v15 : Ref sig .tc := ⟨.hbm, 77, rfl⟩
abbrev main_v16 : Ref sig .tc := ⟨.hbm, 78, rfl⟩
abbrev main_v17 : Ref sig .tc := ⟨.hbm, 79, rfl⟩
abbrev main_cst_5 : Ref sig .tc := ⟨.hbm, 80, rfl⟩
abbrev main_v18 : Ref sig .tc := ⟨.hbm, 81, rfl⟩
abbrev main_v19 : Ref sig .tc := ⟨.hbm, 82, rfl⟩
abbrev main_v20 : Ref sig .tc := ⟨.hbm, 83, rfl⟩
abbrev main_v21 : Ref sig .tc := ⟨.hbm, 84, rfl⟩
abbrev main_cst_6 : Ref sig .tc := ⟨.hbm, 85, rfl⟩
abbrev main_v22 : Ref sig .tc := ⟨.hbm, 86, rfl⟩
abbrev main_v23 : Ref sig .tc := ⟨.hbm, 87, rfl⟩
abbrev main_cst_7 : Ref sig .tc := ⟨.hbm, 88, rfl⟩
abbrev main_v24 : Ref sig .tc := ⟨.hbm, 89, rfl⟩
abbrev main_v25 : Ref sig .tc := ⟨.hbm, 90, rfl⟩
abbrev main_c_8 : Ref sig .tc := ⟨.hbm, 91, rfl⟩
abbrev main_call2_call0_cst : Ref sig .tc := ⟨.hbm, 92, rfl⟩
abbrev main_call2_call0_v0 : Ref sig .tc := ⟨.hbm, 93, rfl⟩
abbrev main_call2_call0_v1 : Ref sig .tc := ⟨.hbm, 94, rfl⟩
abbrev main_call2_call0_cst_0 : Ref sig .tc := ⟨.hbm, 95, rfl⟩
abbrev main_call2_call0_v2 : Ref sig .tc := ⟨.hbm, 96, rfl⟩
abbrev main_call2_call0_v3 : Ref sig .tc := ⟨.hbm, 97, rfl⟩
abbrev main_call2_call0_v4 : Ref sig .tc := ⟨.hbm, 98, rfl⟩
abbrev main_call2_call0_v5 : Ref sig .tc := ⟨.hbm, 99, rfl⟩
abbrev main_call2_call0_v6 : Ref sig .tc := ⟨.hbm, 100, rfl⟩
abbrev main_call2_call0_v7 : Ref sig .tc := ⟨.hbm, 101, rfl⟩
abbrev main_call2_call0_cst_1 : Ref sig .tc := ⟨.hbm, 102, rfl⟩
abbrev main_call2_call0_v8 : Ref sig .tc := ⟨.hbm, 103, rfl⟩
abbrev main_call2_call0_cst_2 : Ref sig .tc := ⟨.hbm, 104, rfl⟩
abbrev main_call2_call0_v9 : Ref sig .tc := ⟨.hbm, 105, rfl⟩
abbrev main_call2_call0_v10 : Ref sig .tc := ⟨.hbm, 106, rfl⟩
abbrev main_call2_call0_v11 : Ref sig .tc := ⟨.hbm, 107, rfl⟩
abbrev main_call2_call0_v12 : Ref sig .tc := ⟨.hbm, 108, rfl⟩
abbrev main_call2_call0_cst_3 : Ref sig .tc := ⟨.hbm, 109, rfl⟩
abbrev main_call2_call0_v13 : Ref sig .tc := ⟨.hbm, 110, rfl⟩
abbrev main_call2_call0_cst_4 : Ref sig .tc := ⟨.hbm, 111, rfl⟩
abbrev main_call2_call0_call0_v0 : Ref sig .tc := ⟨.hbm, 112, rfl⟩
abbrev main_call2_call0_call0_v1 : Ref sig .tc := ⟨.hbm, 113, rfl⟩
abbrev main_call2_v0 : Ref sig .tc := ⟨.hbm, 114, rfl⟩
abbrev main_v26 : Ref sig .tc := ⟨.hbm, 115, rfl⟩
abbrev main_v27 : Ref sig .tc := ⟨.hbm, 116, rfl⟩
abbrev main_v28 : Ref sig .tc := ⟨.hbm, 117, rfl⟩
abbrev main_cst_9 : Ref sig .tc := ⟨.hbm, 118, rfl⟩
abbrev main_v29 : Ref sig .tc := ⟨.hbm, 119, rfl⟩
abbrev main_v30 : Ref sig .tc := ⟨.hbm, 120, rfl⟩
abbrev main_v31 : Ref sig .tc := ⟨.hbm, 121, rfl⟩
abbrev main_v32 : Ref sig .tc := ⟨.hbm, 122, rfl⟩
abbrev main_v33 : Ref sig .tc := ⟨.hbm, 123, rfl⟩
abbrev main_v34 : Ref sig .tc := ⟨.hbm, 124, rfl⟩
abbrev main_v35 : Ref sig .tc := ⟨.hbm, 125, rfl⟩
abbrev main_v36 : Ref sig .tc := ⟨.hbm, 126, rfl⟩
abbrev main_v37 : Ref sig .tc := ⟨.hbm, 127, rfl⟩
abbrev main_v38 : Ref sig .tc := ⟨.hbm, 128, rfl⟩
abbrev main_v39 : Ref sig .tc := ⟨.hbm, 129, rfl⟩
abbrev main_v40 : Ref sig .tc := ⟨.hbm, 130, rfl⟩
abbrev main_v41 : Ref sig .tc := ⟨.hbm, 131, rfl⟩
abbrev main_v42 : Ref sig .tc := ⟨.hbm, 132, rfl⟩
abbrev main_v43 : Ref sig .tc := ⟨.hbm, 133, rfl⟩
abbrev main_v44 : Ref sig .tc := ⟨.hbm, 134, rfl⟩
abbrev main_v45 : Ref sig .tc := ⟨.hbm, 135, rfl⟩
abbrev main_v46 : Ref sig .tc := ⟨.hbm, 136, rfl⟩
abbrev main_call3_cst : Ref sig .tc := ⟨.hbm, 137, rfl⟩
abbrev main_call3_v0 : Ref sig .tc := ⟨.hbm, 138, rfl⟩
abbrev main_v47 : Ref sig .tc := ⟨.hbm, 139, rfl⟩
abbrev main_cst_10 : Ref sig .tc := ⟨.hbm, 140, rfl⟩
abbrev main_v48 : Ref sig .tc := ⟨.hbm, 141, rfl⟩
abbrev main_v49 : Ref sig .tc := ⟨.hbm, 142, rfl⟩
abbrev main_cst_11 : Ref sig .tc := ⟨.hbm, 143, rfl⟩
abbrev main_v50 : Ref sig .tc := ⟨.hbm, 144, rfl⟩
abbrev main_v51 : Ref sig .tc := ⟨.hbm, 145, rfl⟩
abbrev main_v52 : Ref sig .tc := ⟨.hbm, 146, rfl⟩

abbrev nD : Nat := 1
abbrev τ : Topo := Topo.v7x

variable {F : FTy → Type} [FloatOps F]

class Facts₀ : Prop where
  reducesTo_S8192x2000_S8192_d1 : S8192x2000.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x2000_0_1 : S8192x1.BroadcastsInDim S8192x2000 (![0, 1] : Fin 2 → Fin S8192x2000.rank)
  bcast_S2000_S1x2000_1 : S2000.BroadcastsInDim S1x2000 (![1] : Fin 1 → Fin S1x2000.rank)
  bcast_S1x2000_S8192x2000_0_1 : S1x2000.BroadcastsInDim S8192x2000 (![0, 1] : Fin 2 → Fin S8192x2000.rank)
  bcast_S_S8192x2000 : S_.BroadcastsInDim S8192x2000 (![] : Fin 0 → Fin S8192x2000.rank)
  dot_S8192x2000_S2000x2000_S8192x2000_1_1_0_0_n_n_wf : DotDims.WF S8192x2000 S2000x2000 S8192x2000 [1] [1] [0] [0] [] []

variable [Facts₀]

def dot_S8192x2000_S2000x2000_S8192x2000_1_1_0_0_n_n : DotDims S8192x2000 S2000x2000 S8192x2000 where
  lhsContracting := [1]
  rhsContracting := [1]
  lhsNonContracting := [0]
  rhsNonContracting := [0]
  lhsBatch := []
  rhsBatch := []
  wf := dot_S8192x2000_S2000x2000_S8192x2000_1_1_0_0_n_n_wf

class Facts : Prop extends Facts₀ where

variable [Facts]
-- ==== Proof.RowSpec.lean ====
/-
  One row of the recurrent layer, on the extended reals.

  A row  x  of n numbers is standardized by its own mean and its own sample spread:
    mean x = (Σ_k x_k) / n ,   spread x = sqrt( (Σ_k (x_k − mean x)·(x_k − mean x)) / (n − 1) ) + ε ,
    standardized x k = (x_k − mean x) / spread x .
  The layer drives output  c  of a row by the three standardized neighbour rows (the previous layer's  p , the
  layer's own  s , the next layer's  q ) through three weight matrices and three biases, added in this order:
    drive c = ((((Σ_k p̂_k·Wf_{c,k} + bf_c) + Σ_k q̂_k·Wb_{c,k}) + bb_c) + Σ_k ŝ_k·Wl_{c,k}) + bl_c ,
  rectifies it and mixes it with the row's own old value:
    updated c = damp · max(drive c, 0) + keep · s_c .
  The constants n, n − 1, ε, damp and keep are the single-precision words the programs spell; a word is never
  evaluated here, both programs spell the same ones. `layer` is that function on every row of a batch.
-/
import Idealize.ShloMosaic.PureOps.Ideal
import Idealize.ShloMosaic.Lib.ValueIdx

noncomputable section

open scoped BigOperators

namespace Cert.RowSpec

open Idealize.ShloMosaic Idealize.ShloMosaic.ValueIdx

/-- The row length n = 2000 as the programs spell it. -/
abbrev wLen : EReal := Ideal.ofBits .f32 0x44FA0000#32
/-- n − 1 = 1999 as the kernel spells it. -/
abbrev wLenLessOne : EReal := Ideal.ofBits .f32 0x44F9E000#32
/-- The ε added to a row's spread. -/
abbrev wEps : EReal := Ideal.ofBits .f32 0x322BCC77#32
/-- The weight of the new activation in the damped update. -/
abbrev wDamp : EReal := Ideal.ofBits .f32 0x3F333333#32
/-- The weight of the old activation in the damped update. -/
abbrev wKeep : EReal := Ideal.ofBits .f32 0x3E99999A#32

variable {n : ℕ}

/-- The mean of a row. -/
def mean (x : Fin n → EReal) : EReal := Ideal.div (∑ k, x k) wLen

/-- The sample spread of a row about its mean, plus ε. -/
def spread (x : Fin n → EReal) : EReal :=
  Ideal.sqrt (Ideal.div (∑ k, (x k - mean x) * (x k - mean x)) wLenLessOne) + wEps

/-- A row's entry k, centred and scaled by the row's spread. -/
def standardized (x : Fin n → EReal) (k : Fin n) : EReal := Ideal.div (x k - mean x) (spread x)

/-- What drives output c of a row: the three standardized rows through their weights, and the biases. -/
def drive (p s q : Fin n → EReal) (Wf Wb Wl : Fin n → Fin n → EReal) (bf bb bl : Fin n → EReal) (c : Fin n) : EReal :=
  (((((∑ k, standardized p k * Wf c k) + bf c) + ∑ k, standardized q k * Wb c k) + bb c)
    + ∑ k, standardized s k * Wl c k) + bl c

/-- Output c of a row after the damped update. -/
def updated (p s q : Fin n → EReal) (Wf Wb Wl : Fin n → Fin n → EReal) (bf bb bl : Fin n → EReal) (c : Fin n) : EReal :=
  wDamp * max (drive p s q Wf Wb Wl bf bb bl c) 0 + wKeep * s c

/-- The layer on a batch of R rows: entry (r, c) is output c of row r. The weights are read as  W (c, k) : output c,
    input k. -/
def layer {R : ℕ} (P S Q : (⟨2, ![R, n]⟩ : Shape).Idx → EReal) (Wf Wb Wl : (⟨2, ![n, n]⟩ : Shape).Idx → EReal)
    (bf bb bl : (⟨1, ![n]⟩ : Shape).Idx → EReal) (r : Fin R) (c : Fin n) : EReal :=
  updated (fun k => P (ix2 r k)) (fun k => S (ix2 r k)) (fun k => Q (ix2 r k))
    (fun c k => Wf (ix2 c k)) (fun c k => Wb (ix2 c k)) (fun c k => Wl (ix2 c k))
    (fun c => bf (ix1 c)) (fun c => bb (ix1 c)) (fun c => bl (ix1 c)) c

end Cert.RowSpec

end
-- ==== Proof.LibKeepdimsColumn.lean ====
/-
  The layout steps of a row statistic kept as a column (a sum over the last axis with the reduced axis kept at size one),
  read at an index given by coordinates, for any element type and any extents:
  a vector of length a laid out as an [a, 1] column reads, at (i, u), the vector at i;
  an [a, 1] column spread over the b columns of an [a, b] matrix reads, at (i, c), the column at (i, 0);
  and, on the extended reals, the sum over the last axis of an [a, b] matrix reads, at i, the sum over c of the matrix at (i, c).
-/
import Idealize.ShloMosaic.Lib.ValueLayout
import Idealize.ShloMosaic.PureOps.Ideal.Laws

open scoped BigOperators

namespace Cert.LibKeepdimsColumn

open Idealize.ShloMosaic Idealize.ShloMosaic.ValueIdx

variable {α : Type}

/-- A vector of length `a` laid out as an `[a, 1]` column: the entry at `(i, u)` is the vector's entry at `i`,
    whatever the unit coordinate `u` (both have row-major position `i`). -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column spread over the columns of an `[a, b]` matrix: the entry at `(i, c)` is the column's entry in
    row `i`. -/
theorem broadcastTo_a1_ab_apply {a b : ℕ} (v : (⟨2, ![a, 1]⟩ : Shape).Idx → α) (h : (⟨2, ![a, 1]⟩ : Shape).Broadcasts ⟨2, ![a, b]⟩)
    (i : Fin a) (c : Fin b) : broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

/-- On the extended reals, the sum over the last axis of an `[a, b]` matrix, started from the zero word: the entry at `i`
    is the sum over the columns `c` of the matrix's entry at `(i, c)`. (The start word's evidence is typed as a printed
    program carries it: the word equal to itself, which is what the neutral word of a sum unfolds to.) -/
theorem rowSum_apply {a b : ℕ} (src : FVec Ideal (⟨2, ![a, b]⟩ : Shape) .f32)
    (h : (⟨2, ![a, b]⟩ : Shape).Reduces [1] ⟨1, ![a]⟩) (hφ : FKind.Formats .f32)
    (hacc : (0x00000000#32 : BitVec 32) = 0x00000000#32) (i : Fin a) :
    multiReduction .add [1] ⟨1, ![a]⟩ src 0x00000000#32 h hφ hacc (ix1 i) = ∑ c : Fin b, src (ix2 i c) := by
  refine (Ideal.multiReduction_add_single src 0x00000000#32 h hφ hacc (ix1 i)).trans ?_
  refine Finset.sum_congr rfl fun c _ => congrArg src ?_
  funext ax
  match ax with
  | ⟨0, _⟩ => rfl
  | ⟨1, _⟩ => rfl

end Cert.LibKeepdimsColumn
-- ==== Proof.VectorRows.lean ====
/-
  A block of R rows standardized as a vector program spells it, read at an entry.

  The row sum keeps its axis as a column of extent one: the sum over the last axis gives a length-R vector, which is laid
  out as an [R, 1] column and divided by the row length; that column is spread back over the n columns to centre the
  block; the squared deviations are summed the same way, divided by (row length − 1), rooted, ε added, and the
  resulting column spread back as the divisor. Read at (r, k) each step is the matching step of `RowSpec` on row r:
  the column of means at (r, 0) is `mean` of the row, the column of divisors at (r, 0) its `spread`, the standardized
  block at (r, k) its `standardized` entry k. Generic in R and n.
-/
import proofs.«145279_j14731737825659_1_alg».proof.Proof.RowSpec
import proofs.«145279_j14731737825659_1_alg».proof.Proof.LibKeepdimsColumn
import Idealize.ShloMosaic.Lib.ValueIdx
import Idealize.ShloMosaic.Lib.ValueLayout
import Idealize.ShloMosaic.PureOps.Ideal.Laws

noncomputable section

open scoped BigOperators

namespace Cert.VectorRows

open Idealize.ShloMosaic Idealize.ShloMosaic.ValueIdx Cert.RowSpec Cert.LibKeepdimsColumn

variable {R n : ℕ}

/-- The square root of a vector at an index is the square root of the entry. -/
theorem sqrt_apply {s : Shape} {φ : FTy} (v : FVec Ideal s φ) (i : s.Idx) : sqrt v i = Ideal.sqrt (v i) := rfl

section Spelling

variable (x : FVec Ideal (⟨2, ![R, n]⟩ : Shape) .f32)
  (hred : (⟨2, ![R, n]⟩ : Shape).Reduces [1] ⟨1, ![R]⟩)
  (hcast : (⟨1, ![R]⟩ : Shape).ShapeCasts ⟨2, ![R, 1]⟩)
  (hbc : (⟨2, ![R, 1]⟩ : Shape).Broadcasts ⟨2, ![R, n]⟩)

/-- The column of row means. -/
def meanCol : FVec Ideal (⟨2, ![R, 1]⟩ : Shape) .f32 :=
  divf (shapeCast ⟨2, ![R, 1]⟩ (multiReduction .add [1] ⟨1, ![R]⟩ x 0x00000000#32 hred (.inl rfl) rfl) hcast)
    (broadcast ⟨2, ![R, 1]⟩ (Scalar.ofBits .f32 0x44FA0000#32))

/-- The block centred by its row means. -/
def centred : FVec Ideal (⟨2, ![R, n]⟩ : Shape) .f32 :=
  subf x (broadcastTo ⟨2, ![R, n]⟩ (meanCol x hred hcast) hbc)

/-- The column of row divisors: the root of the sample variance, plus ε. -/
def spreadCol : FVec Ideal (⟨2, ![R, 1]⟩ : Shape) .f32 :=
  addf
    (sqrt (divf
      (shapeCast ⟨2, ![R, 1]⟩
        (multiReduction .add [1] ⟨1, ![R]⟩ (mulf (centred x hred hcast hbc) (centred x hred hcast hbc)) 0x00000000#32 hred (.inl rfl) rfl)
        hcast)
      (broadcast ⟨2, ![R, 1]⟩ (Scalar.ofBits .f32 0x44F9E000#32))))
    (broadcast ⟨2, ![R, 1]⟩ (Scalar.ofBits .f32 0x322BCC77#32))

/-- The block standardized row by row. -/
def standardizedBlock : FVec Ideal (⟨2, ![R, n]⟩ : Shape) .f32 :=
  divf (centred x hred hcast hbc) (broadcastTo ⟨2, ![R, n]⟩ (spreadCol x hred hcast hbc) hbc)

/-- The column of means at row r is the mean of row r. -/
theorem meanCol_apply (r : Fin R) :
    meanCol x hred hcast (ix2 r (0 : Fin 1)) = mean (fun k => x (ix2 r k)) := by
  unfold meanCol mean
  rw [divf_apply, shapeCast_a_a1_apply, rowSum_apply, broadcast_apply]
  rfl

/-- The centred block at (r, k) is the entry less its row's mean. -/
theorem centred_apply (r : Fin R) (k : Fin n) :
    centred x hred hcast hbc (ix2 r k) = x (ix2 r k) - mean (fun k => x (ix2 r k)) := by
  unfold centred
  rw [subf_apply, broadcastTo_a1_ab_apply, meanCol_apply]

/-- The column of divisors at row r is the spread of row r. -/
theorem spreadCol_apply (r : Fin R) :
    spreadCol x hred hcast hbc (ix2 r (0 : Fin 1)) = spread (fun k => x (ix2 r k)) := by
  unfold spreadCol spread
  rw [addf_apply, broadcast_apply, sqrt_apply, divf_apply, shapeCast_a_a1_apply, rowSum_apply, broadcast_apply]
  simp only [mulf_apply, centred_apply]
  rfl

/-- The standardized block at (r, k) is the standardized entry k of row r. -/
theorem standardizedBlock_apply (r : Fin R) (k : Fin n) :
    standardizedBlock x hred hcast hbc (ix2 r k) = standardized (fun k => x (ix2 r k)) k := by
  unfold standardizedBlock standardized
  rw [divf_apply, centred_apply, broadcastTo_a1_ab_apply, spreadCol_apply]

end Spelling

end Cert.VectorRows

end
-- ==== Proof.LibDense.lean ====
/-
  One dense layer of a multilayer perceptron, read one row at a time over the extended reals.

  A layer maps a row  v  of K numbers to the row  y_c = (Σ_k v_k · W_{k,c}) + b_c  of C numbers (`affine`), optionally
  followed by the rectifier  max(·, 0)  (`relu`). A product of an [R, K] array with a [K, C] array whose dimension
  numbers contract the left operand's axis 1 with the right operand's axis 0 (no batch axes) is, at the entry (r, c),
  the sum over k of  lhs(r, k) · rhs(k, c) : this holds for the matrix unit's product into a zero accumulator and for the
  host's general product alike (`matmul_zero_plain_apply`, `dotGeneral_plain_apply`), because both are the same sum over
  the one-axis contraction index, re-indexed here by its one coordinate (`contr_sum`). So a whole layer as either
  program spells it — the product, the bias row added to every row, the maximum with zero — is `relu (affine W b row)`
  at every entry (`kernel_affine_apply` then `kernel_relu_apply`; `host_affine_apply` then `host_relu_apply`), whatever the number of rows: a layer acts on each row by
  itself.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- The affine map of one row:  y_c = (Σ_k v_k · W_{k,c}) + b_c . -/
def affine {K C : ℕ} (W : FVec Ideal ⟨2, ![K, C]⟩ .f32) (b : FVec Ideal ⟨1, ![C]⟩ .f32) (v : Fin K → EReal) :
    Fin C → EReal :=
  fun c => (∑ k : Fin K, v k * W (ix2 k c)) + b (ix1 c)

/-- The rectifier on a row:  max(y_c, 0) . -/
def relu {C : ℕ} (v : Fin C → EReal) : Fin C → EReal := fun c => max (v c) 0

/-- A coordinate of an index does not depend on how its axis number is written. -/
private theorem idx_val_congr {s : Shape} (j : s.Idx) (p q : Nat) (hp : p < s.rank) (hq : q < s.rank) (h : p = q) :
    (j ⟨p, hp⟩).val = (j ⟨q, hq⟩).val := by subst h; rfl

/-- With no batch axes and the left operand's axis 0 its only free axis, the left index's row is the result's row. -/
private theorem lhsIdx_row {R K C : ℕ} (d : DotDims ⟨2, ![R, K]⟩ ⟨2, ![K, C]⟩ ⟨2, ![R, C]⟩)
    (h3 : d.lhsNonContracting = [0]) (h5 : d.lhsBatch = [])
    (j : (⟨2, ![R, C]⟩ : Shape).Idx) (k : d.contr.Idx) : (d.lhsIdx j k 0).val = (j 0).val := by
  have hb : (0 : Fin 2) ∉ d.lhsBatch := by rw [h5]; exact List.not_mem_nil
  have hn : (0 : Fin 2) ∈ d.lhsNonContracting := by rw [h3]; exact List.mem_singleton.mpr rfl
  unfold DotDims.lhsIdx
  rw [dif_neg hb, dif_pos hn]
  simp only [Fin.val_cast]
  exact idx_val_congr j _ _ _ _ (by simp [h3, h5])

/-- With no batch axes, one free axis on the left and the right operand's axis 1 its only free axis, the right index's
    column is the result's column. -/
private theorem rhsIdx_col {R K C : ℕ} (d : DotDims ⟨2, ![R, K]⟩ ⟨2, ![K, C]⟩ ⟨2, ![R, C]⟩)
    (h3 : d.lhsNonContracting = [0]) (h4 : d.rhsNonContracting = [1]) (h5 : d.lhsBatch = []) (h6 : d.rhsBatch = [])
    (j : (⟨2, ![R, C]⟩ : Shape).Idx) (k : d.contr.Idx) : (d.rhsIdx j k 1).val = (j 1).val := by
  have hb : (1 : Fin 2) ∉ d.rhsBatch := by rw [h6]; exact List.not_mem_nil
  have hn : (1 : Fin 2) ∈ d.rhsNonContracting := by rw [h4]; exact List.mem_singleton.mpr rfl
  unfold DotDims.rhsIdx
  rw [dif_neg hb, dif_pos hn]
  simp only [Fin.val_cast]
  exact idx_val_congr j _ _ _ _ (by simp [h3, h4, h5])

/-- The sum over a one-axis contraction index of a plain [R,K] × [K,C] product, as the sum over k of
    lhs(r, k) · rhs(k, c). -/
theorem contr_sum {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (lhs : (⟨2, ![R, K]⟩ : Shape).Idx → EReal) (rhs : (⟨2, ![K, C]⟩ : Shape).Idx → EReal) (r : Fin R) (c : Fin C) :
    ∑ k : d.contr.Idx, lhs (d.lhsIdx (ix2 r c) k) * rhs (d.rhsIdx (ix2 r c) k)
      = ∑ k : Fin K, lhs (ix2 r k) * rhs (ix2 k c) := by
  -- the contraction index has one axis, of extent K
  have hr : d.contr.rank = 1 := by rw [d.rank_contr, h1]; rfl
  have hs : d.contr.size ⟨0, by omega⟩ = K := by
    have h := d.size_contr 0 (by rw [h1]; exact Nat.one_pos)
    rw [h]
    simp [h1]
  -- re-index the sum by that axis's one coordinate
  rw [← Equiv.sum_comp (contrEquiv1 d K hr hs).symm]
  refine Finset.sum_congr rfl fun k _ => ?_
  have hk : (((contrEquiv1 d K hr hs).symm k) ⟨0, by omega⟩ : ℕ) = k.val := contrEquiv1_symm_val d K hr hs k
  -- the left operand is read at (r, k): its row from the result, its column from the contraction
  have el : d.lhsIdx (ix2 r c) ((contrEquiv1 d K hr hs).symm k) = ix2 r k := by
    funext a
    match a with
    | ⟨0, _⟩ => exact Fin.ext (lhsIdx_row d h3 h5 (ix2 r c) _)
    | ⟨1, _⟩ => exact Fin.ext ((d.lhsIdx_val_of_single h1 (ix2 r c) _).trans hk)
  -- the right operand is read at (k, c): its row from the contraction, its column from the result
  have er : d.rhsIdx (ix2 r c) ((contrEquiv1 d K hr hs).symm k) = ix2 k c := by
    funext a
    match a with
    | ⟨0, _⟩ => exact Fin.ext ((d.rhsIdx_val_of_single h2 (ix2 r c) _).trans hk)
    | ⟨1, _⟩ => exact Fin.ext (rhsIdx_col d h3 h4 h5 h6 (ix2 r c) _)
  rw [el, er]

/-- The matrix unit's product into a zero accumulator, at (r, c). -/
theorem matmul_zero_plain_apply {R K C : ℕ} {φ₁ φ₂ : FTy} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![R, K]⟩ φ₁) (rhs : FVec Ideal ⟨2, ![K, C]⟩ φ₂)
    (r : Fin R) (c : Fin C) :
    matmul d prec lhs rhs (constant ⟨2, ![R, C]⟩ .f32 0x00000000#32) (ix2 r c)
      = ∑ k : Fin K, lhs (ix2 r k) * rhs (ix2 k c) := by
  -- the product into zeros is the sum over the contraction index, which is the sum over k
  show FloatOps.matmul d prec lhs rhs (constant ⟨2, ![R, C]⟩ .f32 0x00000000#32) (ix2 r c) = _
  rw [Ideal.matmul_constant_zero_apply]
  exact contr_sum d h1 h2 h3 h4 h5 h6 lhs rhs r c

/-- The host's general product, at (r, c). -/
theorem dotGeneral_plain_apply {R K C : ℕ} {φ₁ φ₂ : FTy} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![R, K]⟩ φ₁) (rhs : FVec Ideal ⟨2, ![K, C]⟩ φ₂)
    (r : Fin R) (c : Fin C) :
    Host.dotGeneral d prec lhs rhs (ix2 r c) = ∑ k : Fin K, lhs (ix2 r k) * rhs (ix2 k c) := by
  -- the general product is the same sum over the contraction index
  simp only [Host.dotGeneral]
  rw [Ideal.dotGeneral_apply]
  exact contr_sum d h1 h2 h3 h4 h5 h6 lhs rhs r c

/-- A [C] row viewed as a [1, C] array and stretched over R rows reads, at (r, c), the row's entry c. -/
private theorem bias_keepdims_apply {R C : ℕ} {α : Type}
    (hsc : (⟨1, ![C]⟩ : Shape).ShapeCasts ⟨2, ![1, C]⟩) (hbc : (⟨2, ![1, C]⟩ : Shape).Broadcasts ⟨2, ![R, C]⟩)
    (b : (⟨1, ![C]⟩ : Shape).Idx → α) (r : Fin R) (c : Fin C) :
    broadcastTo ⟨2, ![R, C]⟩ (shapeCast ⟨2, ![1, C]⟩ b hsc) hbc (ix2 r c) = b (ix1 c) := by
  -- the stretch reads the [1, C] array at (0, c); when C = 1 the column c is itself 0
  refine (broadcastTo_apply _ hbc (ix2 r c) (ix2 (0 : Fin 1) c) fun a => ?_).trans ?_
  · match a with
    | ⟨0, _⟩ => exact (if_pos rfl).symm
    | ⟨1, _⟩ =>
      show c.val = if C = 1 then 0 else c.val
      split
      · have := c.isLt; omega
      · rfl
  -- the added unit axis reads the row at its trailing coordinate
  · refine (shapeCast_addUnit_apply ![C] b hsc (ix2 (0 : Fin 1) c)).trans ?_
    exact congrArg b (funext fun a => match a with | ⟨0, _⟩ => rfl)

/-- A layer before its rectifier as the kernel spells it — both operands narrowed to bf16 (the identity on the
    extended reals), the product into zeros, the bias as a [1, C] row stretched over the R rows and added — at (r, c). -/
theorem kernel_affine_apply {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (hlt : FTy.bits .bf16 < FTy.bits .f32)
    (hsc : (⟨1, ![C]⟩ : Shape).ShapeCasts ⟨2, ![1, C]⟩) (hbc : (⟨2, ![1, C]⟩ : Shape).Broadcasts ⟨2, ![R, C]⟩)
    (X : FVec Ideal ⟨2, ![R, K]⟩ .f32) (W : FVec Ideal ⟨2, ![K, C]⟩ .f32) (b : FVec Ideal ⟨1, ![C]⟩ .f32)
    (r : Fin R) (c : Fin C) :
    addf (matmul d none (truncf .bf16 X hlt) (truncf .bf16 W hlt) (constant ⟨2, ![R, C]⟩ .f32 0x00000000#32))
        (broadcastTo ⟨2, ![R, C]⟩ (shapeCast ⟨2, ![1, C]⟩ b hsc) hbc) (ix2 r c)
      = affine W b (fun k => X (ix2 r k)) c := by
  -- the sum at (r, c) plus the bias entry c; narrowing to bf16 is the identity on the extended reals
  rw [addf_apply, matmul_zero_plain_apply d h1 h2 h3 h4 h5 h6, bias_keepdims_apply hsc hbc b r c]
  rfl

/-- The kernel's rectifier — the maximum with a splat of the zero word — at an index. -/
theorem kernel_relu_apply {s : Shape} (v : FVec Ideal s .f32) (i : s.Idx) :
    maximumf v (broadcast s (Scalar.ofBits (F := Ideal) .f32 0x00000000#32)) i = max (v i) 0 := by
  -- the splat reads the zero word everywhere, and the zero word is the number 0
  rw [maximumf_apply, broadcast_apply]
  show max (v i) (Ideal.ofBits .f32 0x00000000#32) = _
  rw [Ideal.ofBits_zero_f32]

/-- A [C] row laid out as a [1, C] array on its axis 1 and then over R rows on both axes reads, at (r, c), the row's
    entry c. -/
private theorem bias_inDim_apply {R C : ℕ} {α : Type}
    (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (b : (⟨1, ![C]⟩ : Shape).Idx → α) (r : Fin R) (c : Fin C) :
    broadcastInDim ⟨2, ![R, C]⟩ ![0, 1] hb2 (broadcastInDim ⟨2, ![1, C]⟩ ![1] hb1 b) (ix2 r c) = b (ix1 c) := by
  -- the outer layout reads the [1, C] array at (0, c); when C = 1 the column c is itself 0
  refine (broadcastInDim_apply ![0, 1] hb2 _ (ix2 r c) (ix2 (0 : Fin 1) c) fun a => ?_).trans ?_
  · match a with
    | ⟨0, _⟩ => exact (if_pos rfl).symm
    | ⟨1, _⟩ =>
      show c.val = if C = 1 then 0 else c.val
      split
      · have := c.isLt; omega
      · rfl
  -- the inner layout reads the row at the [1, C] array's coordinate on axis 1
  · refine broadcastInDim_apply ![1] hb1 b (ix2 (0 : Fin 1) c) (ix1 c) fun a => ?_
    match a with
    | ⟨0, _⟩ =>
      show c.val = if C = 1 then 0 else c.val
      split
      · have := c.isLt; omega
      · rfl

/-- A layer before its rectifier as the host spells it — the general product, the bias laid out as a [1, C] row and
    then over the R rows, added — at (r, c). -/
theorem host_affine_apply {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (X : FVec Ideal ⟨2, ![R, K]⟩ .f32) (W : FVec Ideal ⟨2, ![K, C]⟩ .f32) (b : FVec Ideal ⟨1, ![C]⟩ .f32)
    (r : Fin R) (c : Fin C) :
    addf (Host.dotGeneral d none X W)
        (broadcastInDim ⟨2, ![R, C]⟩ ![0, 1] hb2 (broadcastInDim ⟨2, ![1, C]⟩ ![1] hb1 b)) (ix2 r c)
      = affine W b (fun k => X (ix2 r k)) c := by
  -- the sum at (r, c) plus the bias entry c
  rw [addf_apply, dotGeneral_plain_apply d h1 h2 h3 h4 h5 h6, bias_inDim_apply hb1 hb2 b r c]
  rfl

/-- The host's rectifier — the maximum with the zero scalar laid out over the array — at an index. -/
theorem host_relu_apply {s : Shape} (hb0 : (⟨0, ![]⟩ : Shape).BroadcastsInDim s (![] : Fin 0 → Fin s.rank))
    (v : FVec Ideal s .f32) (i : s.Idx) :
    maximumf v (broadcastInDim s ![] hb0 (constant (F := Ideal) ⟨0, ![]⟩ .f32 0x00000000#32)) i = max (v i) 0 := by
  -- the scalar laid out over the array reads its one entry everywhere: the zero word, which is the number 0
  rw [maximumf_apply]
  have e : broadcastInDim s ![] hb0 (constant (F := Ideal) ⟨0, ![]⟩ .f32 0x00000000#32) i
      = constant (F := Ideal) ⟨0, ![]⟩ .f32 0x00000000#32 ix0 :=
    broadcastInDim_apply ![] hb0 _ i ix0 fun a => a.elim0
  rw [e, constant_apply, Ideal.ofBits_zero_f32]

end Cert.Dense

end
-- ==== Proof.LibBiasRow.lean ====
/-
  A bias row added to every row of a matrix, read at an entry.

  A row  b  of C numbers is added to each of the R rows of an [R, C] array by first giving it a leading axis of
  extent 1 and then repeating that one row R times. A vector program spells the two steps as a shape cast
  [C] → [1, C] followed by a broadcast [1, C] → [R, C]; a host program spells them as two layouts in dimensions,
  [C] → [1, C] on axis 1 and [1, C] → [R, C] on axes (0, 1). Either way the entry (r, c) of the result is  b_c :
  the repetition reads the single row at (0, c) (`stretch_row_apply`, `layout_rows_apply`), and the single row at
  (0, c) is the entry c of  b  (`cast_row_apply`, `layout_row_apply`). The two whole spellings at an entry are
  `cast_stretch_apply` and `layout_layout_apply`. All of it is generic in R, C and the element type; when C = 1
  the column c is itself 0, which is the only case distinction.
-/
import Idealize.ShloMosaic.Lib.ValueIdx
import Idealize.ShloMosaic.Lib.ValueLayout
import Idealize.ShloMosaic.Lib.Pipeline.Value

noncomputable section

namespace Cert.BiasRow

open Idealize.ShloMosaic Idealize.ShloMosaic.ValueIdx

variable {R C : ℕ} {α : Type}

/-- A column number below C is 0 when C = 1, and is itself otherwise. -/
theorem col_val (c : Fin C) : c.val = if C = 1 then 0 else c.val := by
  split
  · have := c.isLt; omega
  · rfl

/-- One row repeated R times by a vector broadcast reads, at (r, c), the row's entry (0, c). -/
theorem stretch_row_apply (hbc : (⟨2, ![1, C]⟩ : Shape).Broadcasts ⟨2, ![R, C]⟩)
    (v : (⟨2, ![1, C]⟩ : Shape).Idx → α) (r : Fin R) (c : Fin C) :
    broadcastTo ⟨2, ![R, C]⟩ v hbc (ix2 r c) = v (ix2 (0 : Fin 1) c) :=
  broadcastTo_apply v hbc (ix2 r c) (ix2 (0 : Fin 1) c) fun a =>
    match a with
    | ⟨0, _⟩ => (if_pos rfl).symm
    | ⟨1, _⟩ => col_val c

/-- A row given a leading unit axis by a shape cast reads, at (0, c), its entry c. -/
theorem cast_row_apply (hsc : (⟨1, ![C]⟩ : Shape).ShapeCasts ⟨2, ![1, C]⟩)
    (b : (⟨1, ![C]⟩ : Shape).Idx → α) (c : Fin C) :
    shapeCast ⟨2, ![1, C]⟩ b hsc (ix2 (0 : Fin 1) c) = b (ix1 c) :=
  (shapeCast_addUnit_apply ![C] b hsc (ix2 (0 : Fin 1) c)).trans
    (congrArg b (funext fun a => match a with | ⟨0, _⟩ => rfl))

/-- The vector spelling whole: cast to [1, C], then repeated over R rows, at (r, c). -/
theorem cast_stretch_apply (hsc : (⟨1, ![C]⟩ : Shape).ShapeCasts ⟨2, ![1, C]⟩)
    (hbc : (⟨2, ![1, C]⟩ : Shape).Broadcasts ⟨2, ![R, C]⟩)
    (b : (⟨1, ![C]⟩ : Shape).Idx → α) (r : Fin R) (c : Fin C) :
    broadcastTo ⟨2, ![R, C]⟩ (shapeCast ⟨2, ![1, C]⟩ b hsc) hbc (ix2 r c) = b (ix1 c) :=
  (stretch_row_apply hbc _ r c).trans (cast_row_apply hsc b c)

/-- One row laid out over R rows on axes (0, 1) reads, at (r, c), the row's entry (0, c). -/
theorem layout_rows_apply (hb2 : (⟨2, ![1, C]⟩ : Shape).BroadcastsInDim ⟨2, ![R, C]⟩ (![0, 1] : Fin 2 → Fin 2))
    (v : (⟨2, ![1, C]⟩ : Shape).Idx → α) (r : Fin R) (c : Fin C) :
    broadcastInDim ⟨2, ![R, C]⟩ ![0, 1] hb2 v (ix2 r c) = v (ix2 (0 : Fin 1) c) :=
by
  refine broadcastInDim_apply ![0, 1] hb2 v (ix2 r c) (ix2 (0 : Fin 1) c) fun a => ?_
  match a with
  | ⟨0, _⟩ => exact (if_pos rfl).symm
  | ⟨1, _⟩ => show c.val = if C = 1 then 0 else c.val; exact col_val c

/-- A row laid out as a [1, C] array on axis 1 reads, at (0, c), its entry c. -/
theorem layout_row_apply (hb1 : (⟨1, ![C]⟩ : Shape).BroadcastsInDim ⟨2, ![1, C]⟩ (![1] : Fin 1 → Fin 2))
    (b : (⟨1, ![C]⟩ : Shape).Idx → α) (c : Fin C) :
    broadcastInDim ⟨2, ![1, C]⟩ ![1] hb1 b (ix2 (0 : Fin 1) c) = b (ix1 c) :=
by
  refine broadcastInDim_apply ![1] hb1 b (ix2 (0 : Fin 1) c) (ix1 c) fun a => ?_
  match a with
  | ⟨0, _⟩ => show c.val = if C = 1 then 0 else c.val; exact col_val c

/-- The host spelling whole: laid out as [1, C] on axis 1, then over R rows, at (r, c). -/
theorem layout_layout_apply (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (b : (⟨1, ![C]⟩ : Shape).Idx → α) (r : Fin R) (c : Fin C) :
    broadcastInDim ⟨2, ![R, C]⟩ ![0, 1] hb2 (broadcastInDim ⟨2, ![1, C]⟩ ![1] hb1 b) (ix2 r c) = b (ix1 c) :=
  (layout_rows_apply hb2 _ r c).trans (layout_row_apply hb1 b c)

end Cert.BiasRow

end
-- ==== Proof.KernelBlock.lean ====
/-
  One grid point's block of the kernel, read at an entry.

  The body loads three activation blocks of 128 rows (previous, own, next), three weight matrices already transposed to
  [input, output] order, and three biases as single rows. It standardizes each activation block row by row, multiplies
  by its weights into a zero accumulator, adds the biases in the order  previous, next, own , rectifies, and mixes with
  the own block. At (r, c) that is `RowSpec.updated` of the three rows r, the weights read transposed
  (output c, input k  ↦  entry (k, c)) and the biases read at (0, c). Narrowing to half precision is the identity on the
  extended reals, and a product into zeros is the sum over the shared axis.
-/
import proofs.«145279_j14731737825659_1_alg».proof.Proof.Gen.KernelIdeal.Skeleton
import proofs.«145279_j14731737825659_1_alg».proof.Proof.VectorRows
import proofs.«145279_j14731737825659_1_alg».proof.Proof.LibDense
import proofs.«145279_j14731737825659_1_alg».proof.Proof.LibBiasRow
import Idealize.ShloMosaic.Lib.Pipeline.Value

noncomputable section

open scoped BigOperators

namespace Cert.KernelIdeal.Block

open Cert.KernelIdeal Cert.KernelIdeal.Gen Idealize.ShloMosaic Idealize.ShloMosaic.ValueIdx Cert.RowSpec Cert.VectorRows

/-- A block standardized row by row, with this kernel's shape evidence. -/
abbrev std (x : FVec Ideal S128x2000 .f32) : FVec Ideal S128x2000 .f32 :=
  standardizedBlock x reduces_S128x2000_S128 shapeCasts_S128_S128x1 broadcasts_S128x1_S128x2000

/-- The previous layer's block standardized and narrowed is the first payload. -/
theorem pay2_eq (v0 : FVec Ideal S128x2000 .f32) : k0_pay2 (F := Ideal) v0 = truncf .bf16 (std v0) bitsLt_bf16_f32 := rfl

/-- The own block's centred entries over its spread are the own block standardized. -/
theorem own_eq (v1 : FVec Ideal S128x2000 .f32) : divf (k0_pay4 (F := Ideal) v1) (k0_pay5 (F := Ideal) v1) = std v1 := rfl

/-- A product with a weight block into zeros, at (r, c): the sum over the shared axis. -/
theorem product_apply (L : FVec Ideal S128x2000 .bf16) (W : FVec Ideal S2000x2000 .bf16) (r : Fin 128) (c : Fin 2000) :
    matmul dot_S128x2000_S2000x2000_S128x2000_1_0_0_1_n_n none L
        (shapeCast S2000x2000 W shapeCasts_S2000x2000_S2000x2000) (constant S128x2000 .f32 0x00000000#32) (ix2 r c)
      = ∑ k : Fin 2000, L (ix2 r k) * W (ix2 k c) := by
  rw [shapeCast_self]
  exact Cert.Dense.matmul_zero_plain_apply dot_S128x2000_S2000x2000_S128x2000_1_0_0_1_n_n rfl rfl rfl rfl rfl rfl none L W r c

/-- A bias row spread over the 128 rows, at (r, c): the row's entry c. -/
theorem bias_apply (b : FVec Ideal S1x2000 .f32) (r : Fin 128) (c : Fin 2000) :
    broadcastTo S128x2000 (shapeCast S1x2000 b shapeCasts_S1x2000_S1x2000) broadcasts_S1x2000_S128x2000 (ix2 r c)
      = b (ix2 (0 : Fin 1) c) := by
  rw [shapeCast_self]
  exact Cert.BiasRow.stretch_row_apply broadcasts_S1x2000_S128x2000 b r c

/-- The three products and the first two biases, as the body composes them. -/
theorem pay6_eq (v2 : FVec Ideal S128x2000 .f32) (v23 : FVec Ideal S128x2000 .bf16) (v39 v42 : FVec Ideal S128x2000 .f32)
    (v66 : FVec Ideal S2000x2000 .bf16) (v69 : FVec Ideal S1x2000 .f32) (v73 : FVec Ideal S2000x2000 .bf16)
    (v77 : FVec Ideal S1x2000 .f32) (v81 : FVec Ideal S2000x2000 .bf16) :
    k0_pay6 (F := Ideal) v2 v23 v39 v42 v66 v69 v73 v77 v81
      = addf (addf (addf (addf
          (matmul dot_S128x2000_S2000x2000_S128x2000_1_0_0_1_n_n none v23
            (shapeCast S2000x2000 v66 shapeCasts_S2000x2000_S2000x2000) (constant S128x2000 .f32 0x00000000#32))
          (broadcastTo S128x2000 (shapeCast S1x2000 v69 shapeCasts_S1x2000_S1x2000) broadcasts_S1x2000_S128x2000))
          (matmul dot_S128x2000_S2000x2000_S128x2000_1_0_0_1_n_n none (truncf .bf16 (std v2) bitsLt_bf16_f32)
            (shapeCast S2000x2000 v73 shapeCasts_S2000x2000_S2000x2000) (constant S128x2000 .f32 0x00000000#32)))
          (broadcastTo S128x2000 (shapeCast S1x2000 v77 shapeCasts_S1x2000_S1x2000) broadcasts_S1x2000_S128x2000))
          (matmul dot_S128x2000_S2000x2000_S128x2000_1_0_0_1_n_n none (truncf .bf16 (divf v39 v42) bitsLt_bf16_f32)
            (shapeCast S2000x2000 v81 shapeCasts_S2000x2000_S2000x2000) (constant S128x2000 .f32 0x00000000#32)) := rfl

/-- The last bias, the rectifier and the damped mix, as the body composes them. -/
theorem pay1_eq (v1 : FVec Ideal S128x2000 .f32) (v84 : FVec Ideal S128x2000 .f32) (v85 : FVec Ideal S1x2000 .f32) :
    k0_pay1 (F := Ideal) v1 v84 v85
      = addf
          (mulf (broadcast S128x2000 (Scalar.ofBits .f32 0x3F333333#32))
            (maximumf
              (addf v84 (broadcastTo S128x2000 (shapeCast S1x2000 v85 shapeCasts_S1x2000_S1x2000) broadcasts_S1x2000_S128x2000))
              (broadcast S128x2000 (Scalar.ofBits .f32 0x00000000#32))))
          (mulf (broadcast S128x2000 (Scalar.ofBits .f32 0x3E99999A#32)) v1) := rfl

/-- The body's stored block at (r, c) is the updated output c of row r. -/
theorem block_apply (v0 v1 v2 : FVec Ideal S128x2000 .f32) (v66 : FVec Ideal S2000x2000 .bf16) (v69 : FVec Ideal S1x2000 .f32)
    (v73 : FVec Ideal S2000x2000 .bf16) (v77 : FVec Ideal S1x2000 .f32) (v81 : FVec Ideal S2000x2000 .bf16)
    (v85 : FVec Ideal S1x2000 .f32) (r : Fin 128) (c : Fin 2000) :
    k0_pay1 (F := Ideal) v1 (k0_pay6 (F := Ideal) v2 (k0_pay2 (F := Ideal) v0) (k0_pay4 (F := Ideal) v1) (k0_pay5 (F := Ideal) v1) v66 v69 v73 v77 v81) v85 (ix2 r c)
      = updated (fun k => v0 (ix2 r k)) (fun k => v1 (ix2 r k)) (fun k => v2 (ix2 r k))
          (fun c k => v66 (ix2 k c)) (fun c k => v73 (ix2 k c)) (fun c k => v81 (ix2 k c))
          (fun c => v69 (ix2 (0 : Fin 1) c)) (fun c => v77 (ix2 (0 : Fin 1) c)) (fun c => v85 (ix2 (0 : Fin 1) c)) c := by
  rw [pay1_eq, addf_apply, mulf_apply, mulf_apply, broadcast_apply, broadcast_apply, Cert.Dense.kernel_relu_apply,
    addf_apply, bias_apply, pay6_eq, own_eq, pay2_eq]
  simp only [addf_apply, product_apply, bias_apply, truncf_apply, std, standardizedBlock_apply]
  rfl

end Cert.KernelIdeal.Block

end
-- ==== Proof.KernelValue.lean ====
/-
  The kernel's result array after the run, as the layer of the launched arguments.

  The grid has 64 points; point t works on rows 128·t … 128·t + 127 of the three activation arrays and of the result,
  and on the whole of the weight and bias arrays. Before the region the host transposes each weight matrix (and narrows
  it, the identity on the extended reals) and lays each bias out as one row, so the region's weight array at (k, c) is
  the launched weight at (c, k) and its bias array at (0, c) the launched bias at c. Hence what point t writes back is
  block t of `result`: entry (r, c) of the block is `RowSpec.updated` on rows 128·t + r of the activations, which is
  `RowSpec.layer` at (128·t + r, c). Every index of the result lies in the block of point (row / 128), so the blocks
  cover the array and the array ends as `result`.
-/
import proofs.«145279_j14731737825659_1_alg».proof.Proof.Gen.KernelIdeal.Value
import proofs.«145279_j14731737825659_1_alg».proof.Proof.KernelBlock
import Idealize.ShloMosaic.Lib.StableHlo.Run

set_option maxRecDepth 16384

noncomputable section

namespace Cert.KernelIdeal.ArrayValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The layer on the launched argument arrays: activations previous, own, next; weights and biases forward, backward,
    lateral. -/
def result (c : Dev nD) : S8192x2000.Idx → EReal := fun i =>
  Cert.RowSpec.layer (R := 8192) (n := 2000) (m ((c : Thread nD τ).loc main_arg0)) (m ((c : Thread nD τ).loc main_arg1)) (m ((c : Thread nD τ).loc main_arg2))
    (m ((c : Thread nD τ).loc main_arg3)) (m ((c : Thread nD τ).loc main_arg5)) (m ((c : Thread nD τ).loc main_arg7))
    (m ((c : Thread nD τ).loc main_arg4)) (m ((c : Thread nD τ).loc main_arg6)) (m ((c : Thread nD τ).loc main_arg8)) (i 0) (i 1)

/-! ## The arrays the host prepares before the region -/

theorem V_fw (c : Dev nD) : (V m c main_v1 : S2000x2000.Idx → EReal)
    = truncf (F := Ideal) .bf16 (transpose S2000x2000 [1, 0] (m ((c : Thread nD τ).loc main_arg3)) transposes_S2000x2000_S2000x2000_1_0) bitsLt_bf16_f32 := by
  dsimp only [V, hostOps0]; after_results

theorem V_bw (c : Dev nD) : (V m c main_v3 : S2000x2000.Idx → EReal)
    = truncf (F := Ideal) .bf16 (transpose S2000x2000 [1, 0] (m ((c : Thread nD τ).loc main_arg5)) transposes_S2000x2000_S2000x2000_1_0) bitsLt_bf16_f32 := by
  dsimp only [V, hostOps0]; after_results

theorem V_lw (c : Dev nD) : (V m c main_v5 : S2000x2000.Idx → EReal)
    = truncf (F := Ideal) .bf16 (transpose S2000x2000 [1, 0] (m ((c : Thread nD τ).loc main_arg7)) transposes_S2000x2000_S2000x2000_1_0) bitsLt_bf16_f32 := by
  dsimp only [V, hostOps0]; after_results

theorem V_fb (c : Dev nD) : (V m c main_v6 : S1x2000.Idx → EReal)
    = shapeCast S1x2000 (m ((c : Thread nD τ).loc main_arg4)) shapeCasts_S2000_S1x2000 := by
  dsimp only [V, hostOps0]; after_results; rfl

theorem V_bb (c : Dev nD) : (V m c main_v7 : S1x2000.Idx → EReal)
    = shapeCast S1x2000 (m ((c : Thread nD τ).loc main_arg6)) shapeCasts_S2000_S1x2000 := by
  dsimp only [V, hostOps0]; after_results; rfl

theorem V_lb (c : Dev nD) : (V m c main_v8 : S1x2000.Idx → EReal)
    = shapeCast S1x2000 (m ((c : Thread nD τ).loc main_arg8)) shapeCasts_S2000_S1x2000 := by
  dsimp only [V, hostOps0]; after_results; rfl

/-- A transposed, narrowed weight matrix at (k, c) is the matrix at (c, k). -/
theorem transposed_apply (W : FVec Ideal S2000x2000 .f32) (k c : Fin 2000) :
    truncf .bf16 (transpose S2000x2000 [1, 0] W transposes_S2000x2000_S2000x2000_1_0) bitsLt_bf16_f32 (ix2 k c) = W (ix2 c k) :=
  transpose_apply [1, 0] W transposes_S2000x2000_S2000x2000_1_0 (ix2 k c) (ix2 c k)
    (fun b => match b with | ⟨0, _⟩ => rfl | ⟨1, _⟩ => rfl)

/-- A bias laid out as one row at (0, c) is the bias at c. -/
theorem row_apply (b : FVec Ideal S2000 .f32) (c : Fin 2000) :
    shapeCast S1x2000 b shapeCasts_S2000_S1x2000 (ix2 (0 : Fin 1) c) = b (ix1 c) :=
  Cert.BiasRow.cast_row_apply shapeCasts_S2000_S1x2000 b c

/-! ## The windows' blocks, read off the arguments -/

theorem point_lt (t : Fin cfg0.N) : t.val < 64 := lt_of_lt_of_eq t.isLt N_0

/-- Row r of point t's block is row 128·t + r of the array. -/
def rowOf (t : Fin cfg0.N) (r : Fin 128) : Fin 8192 :=
  ⟨t.val * 128 + r.val, by have := point_lt t; have := r.isLt; omega⟩

/-- The printed index maps over the grid: the activations' and the result's blocks move down with the point, the
    weights' and biases' stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

theorem prev_read (c : Dev nD) (t : Fin cfg0.N) (r : Fin 128) (k : Fin 2000) :
    iblk m c 0 t (ix2 r k) = (m ((c : Thread nD τ).loc main_arg0)) (ix2 (rowOf t r) k) := by
  show V m c main_arg0 (((cfg0.win 0).blk t).view.emb (ix2 r k)) = _
  rw [V_main_arg0]
  refine congrArg _ (funext fun a => Fin.ext ?_)
  have e := idx_facts t
  match a with
  | ⟨0, _⟩ => show win0_0.index t (0 : Fin 2) * 128 + 1 * r.val = t.val * 128 + r.val; omega
  | ⟨1, _⟩ => show win0_0.index t (1 : Fin 2) * 2000 + 1 * k.val = k.val; omega

theorem own_read (c : Dev nD) (t : Fin cfg0.N) (r : Fin 128) (k : Fin 2000) :
    iblk m c 1 t (ix2 r k) = (m ((c : Thread nD τ).loc main_arg1)) (ix2 (rowOf t r) k) := by
  show V m c main_arg1 (((cfg0.win 1).blk t).view.emb (ix2 r k)) = _
  rw [V_main_arg1]
  refine congrArg _ (funext fun a => Fin.ext ?_)
  have e := idx_facts t
  match a with
  | ⟨0, _⟩ => show win0_1.index t (0 : Fin 2) * 128 + 1 * r.val = t.val * 128 + r.val; omega
  | ⟨1, _⟩ => show win0_1.index t (1 : Fin 2) * 2000 + 1 * k.val = k.val; omega

theorem next_read (c : Dev nD) (t : Fin cfg0.N) (r : Fin 128) (k : Fin 2000) :
    iblk m c 2 t (ix2 r k) = (m ((c : Thread nD τ).loc main_arg2)) (ix2 (rowOf t r) k) := by
  show V m c main_arg2 (((cfg0.win 2).blk t).view.emb (ix2 r k)) = _
  rw [V_main_arg2]
  refine congrArg _ (funext fun a => Fin.ext ?_)
  have e := idx_facts t
  match a with
  | ⟨0, _⟩ => show win0_2.index t (0 : Fin 2) * 128 + 1 * r.val = t.val * 128 + r.val; omega
  | ⟨1, _⟩ => show win0_2.index t (1 : Fin 2) * 2000 + 1 * k.val = k.val; omega

theorem fw_read (c : Dev nD) (t : Fin cfg0.N) (k cc : Fin 2000) :
    iblk m c 3 t (ix2 k cc) = (m ((c : Thread nD τ).loc main_arg3)) (ix2 cc k) := by
  show V m c main_v1 (((cfg0.win 3).blk t).view.emb (ix2 k cc)) = _
  have h : ((cfg0.win 3).blk t).view.emb (ix2 k cc) = ix2 k cc := by
    refine funext fun a => Fin.ext ?_
    have e := idx_facts t
    match a with
    | ⟨0, _⟩ => show win0_3.index t (0 : Fin 2) * 2000 + 1 * k.val = k.val; omega
    | ⟨1, _⟩ => show win0_3.index t (1 : Fin 2) * 2000 + 1 * cc.val = cc.val; omega
  rw [h]
  exact (congrFun (V_fw m c) (ix2 k cc)).trans (transposed_apply _ k cc)

theorem bw_read (c : Dev nD) (t : Fin cfg0.N) (k cc : Fin 2000) :
    iblk m c 5 t (ix2 k cc) = (m ((c : Thread nD τ).loc main_arg5)) (ix2 cc k) := by
  show V m c main_v3 (((cfg0.win 5).blk t).view.emb (ix2 k cc)) = _
  have h : ((cfg0.win 5).blk t).view.emb (ix2 k cc) = ix2 k cc := by
    refine funext fun a => Fin.ext ?_
    have e := idx_facts t
    match a with
    | ⟨0, _⟩ => show win0_5.index t (0 : Fin 2) * 2000 + 1 * k.val = k.val; omega
    | ⟨1, _⟩ => show win0_5.index t (1 : Fin 2) * 2000 + 1 * cc.val = cc.val; omega
  rw [h]
  exact (congrFun (V_bw m c) (ix2 k cc)).trans (transposed_apply _ k cc)

theorem lw_read (c : Dev nD) (t : Fin cfg0.N) (k cc : Fin 2000) :
    iblk m c 7 t (ix2 k cc) = (m ((c : Thread nD τ).loc main_arg7)) (ix2 cc k) := by
  show V m c main_v5 (((cfg0.win 7).blk t).view.emb (ix2 k cc)) = _
  have h : ((cfg0.win 7).blk t).view.emb (ix2 k cc) = ix2 k cc := by
    refine funext fun a => Fin.ext ?_
    have e := idx_facts t
    match a with
    | ⟨0, _⟩ => show win0_7.index t (0 : Fin 2) * 2000 + 1 * k.val = k.val; omega
    | ⟨1, _⟩ => show win0_7.index t (1 : Fin 2) * 2000 + 1 * cc.val = cc.val; omega
  rw [h]
  exact (congrFun (V_lw m c) (ix2 k cc)).trans (transposed_apply _ k cc)

theorem fb_read (c : Dev nD) (t : Fin cfg0.N) (cc : Fin 2000) :
    iblk m c 4 t (ix2 (0 : Fin 1) cc) = (m ((c : Thread nD τ).loc main_arg4)) (ix1 cc) := by
  show V m c main_v6 (((cfg0.win 4).blk t).view.emb (ix2 (0 : Fin 1) cc)) = _
  have h : ((cfg0.win 4).blk t).view.emb (ix2 (0 : Fin 1) cc) = ix2 (0 : Fin 1) cc := by
    refine funext fun a => Fin.ext ?_
    have e := idx_facts t
    match a with
    | ⟨0, _⟩ => show win0_4.index t (0 : Fin 2) * 1 + 1 * 0 = 0; omega
    | ⟨1, _⟩ => show win0_4.index t (1 : Fin 2) * 2000 + 1 * cc.val = cc.val; omega
  rw [h]
  exact (congrFun (V_fb m c) (ix2 (0 : Fin 1) cc)).trans (row_apply _ cc)

theorem bb_read (c : Dev nD) (t : Fin cfg0.N) (cc : Fin 2000) :
    iblk m c 6 t (ix2 (0 : Fin 1) cc) = (m ((c : Thread nD τ).loc main_arg6)) (ix1 cc) := by
  show V m c main_v7 (((cfg0.win 6).blk t).view.emb (ix2 (0 : Fin 1) cc)) = _
  have h : ((cfg0.win 6).blk t).view.emb (ix2 (0 : Fin 1) cc) = ix2 (0 : Fin 1) cc := by
    refine funext fun a => Fin.ext ?_
    have e := idx_facts t
    match a with
    | ⟨0, _⟩ => show win0_6.index t (0 : Fin 2) * 1 + 1 * 0 = 0; omega
    | ⟨1, _⟩ => show win0_6.index t (1 : Fin 2) * 2000 + 1 * cc.val = cc.val; omega
  rw [h]
  exact (congrFun (V_bb m c) (ix2 (0 : Fin 1) cc)).trans (row_apply _ cc)

theorem lb_read (c : Dev nD) (t : Fin cfg0.N) (cc : Fin 2000) :
    iblk m c 8 t (ix2 (0 : Fin 1) cc) = (m ((c : Thread nD τ).loc main_arg8)) (ix1 cc) := by
  show V m c main_v8 (((cfg0.win 8).blk t).view.emb (ix2 (0 : Fin 1) cc)) = _
  have h : ((cfg0.win 8).blk t).view.emb (ix2 (0 : Fin 1) cc) = ix2 (0 : Fin 1) cc := by
    refine funext fun a => Fin.ext ?_
    have e := idx_facts t
    match a with
    | ⟨0, _⟩ => show win0_8.index t (0 : Fin 2) * 1 + 1 * 0 = 0; omega
    | ⟨1, _⟩ => show win0_8.index t (1 : Fin 2) * 2000 + 1 * cc.val = cc.val; omega
  rw [h]
  exact (congrFun (V_lb m c) (ix2 (0 : Fin 1) cc)).trans (row_apply _ cc)

/-- Entry (r, c) of the result's block at point t is entry (128·t + r, c) of the array. -/
theorem out_emb (t : Fin cfg0.N) (r : Fin 128) (cc : Fin 2000) :
    ((cfg0.win 9).blk t).view.emb (ix2 r cc) = ix2 (rowOf t r) cc := by
  refine funext fun a => Fin.ext ?_
  have e := idx_facts t
  match a with
  | ⟨0, _⟩ => show win0_9.index t (0 : Fin 2) * 128 + 1 * r.val = t.val * 128 + r.val; omega
  | ⟨1, _⟩ => show win0_9.index t (1 : Fin 2) * 2000 + 1 * cc.val = cc.val; omega

/-! ## What a point writes back, and the array after the run -/

theorem hz : (![0, 0] : Fin 2 → Nat) = fun _ => 0 := funext fun a => by fin_cases a <;> rfl

/-- What point t writes back is block t of `result`. -/
theorem flushed_eq (c : Dev nD) (t : Fin cfg0.N) :
    (dats m 0 c).flushed 9 t = ((cfg0.win 9).blk t).view.read (Elt Ideal) (result m c) := by
  rw [Cert.KernelIdeal.Value.flushed9]
  unfold out0_9
  rw [View.canon_unit_zero hz]
  simp only [View.ld_unit_zero (S := S128x2000) hz, View.ld_unit_zero (S := S2000x2000) hz, View.ld_unit_zero (S := S1x2000) hz]
  refine funext fun (j : S128x2000.Idx) => ?_
  obtain ⟨r, cc, rfl⟩ : ∃ (r : Fin 128) (cc : Fin 2000), j = ix2 r cc := ⟨j 0, j 1, eq_ix2 j⟩
  show k0_pay1 (iblk m c 1 t) (k0_pay6 (iblk m c 2 t) (k0_pay2 (iblk m c 0 t)) (k0_pay4 (iblk m c 1 t)) (k0_pay5 (iblk m c 1 t))
      (iblk m c 3 t) (iblk m c 4 t) (iblk m c 5 t) (iblk m c 6 t) (iblk m c 7 t)) (iblk m c 8 t) (ix2 r cc)
    = result m c (((cfg0.win 9).blk t).view.emb (ix2 r cc))
  refine (Cert.KernelIdeal.Block.block_apply (iblk m c 0 t) (iblk m c 1 t) (iblk m c 2 t) (iblk m c 3 t) (iblk m c 4 t)
    (iblk m c 5 t) (iblk m c 6 t) (iblk m c 7 t) (iblk m c 8 t) r cc).trans ?_
  rw [out_emb]
  simp only [prev_read, own_read, next_read, fw_read, bw_read, lw_read, fb_read, bb_read, lb_read]
  rfl

/-- An index is in point t's block iff each coordinate is in the block's range on its axis. -/
theorem mem_blk (t : Fin cfg0.N) (i : S8192x2000.Idx) :
    i ∈ ((cfg0.win 9).blk t).view.set ↔ ∀ a : Fin 2, win0_9.index t a * S128x2000.size a ≤ (i a).val ∧ (i a).val < win0_9.index t a * S128x2000.size a + S128x2000.size a := by
  show i ∈ ((View.whole main_v9).slice (win0_9.rect t)).set ↔ _
  rw [View.set_slice_whole, Rect.mem_set_unit]
  exact Iff.rfl

/-- Every index of the result lies in the block of the point  row / 128 . -/
theorem cover (i : S8192x2000.Idx) :
    ∃ t : Fin cfg0.N, (cfg0.win 9).flush t = true ∧ i ∈ ((cfg0.win 9).blk t).view.set := by
  have hi0 : (i 0).val < 8192 := (i 0).isLt
  have hi1 : (i 1).val < 2000 := (i 1).isLt
  have hlt : (i 0).val / 128 < cfg0.N := lt_of_lt_of_eq (by omega : (i 0).val / 128 < 64) N_0.symm
  obtain ⟨t, ht⟩ : ∃ t : Fin cfg0.N, t.val = (i 0).val / 128 := ⟨⟨_, hlt⟩, rfl⟩
  refine ⟨t, flush0_9 t, ?_⟩
  rw [mem_blk]
  have e := idx_facts t
  intro a
  match a with
  | ⟨0, _⟩ =>
    show win0_9.index t (0 : Fin 2) * 128 ≤ (i 0).val ∧ (i 0).val < win0_9.index t (0 : Fin 2) * 128 + 128
    omega
  | ⟨1, _⟩ =>
    show win0_9.index t (1 : Fin 2) * 2000 ≤ (i 1).val ∧ (i 1).val < win0_9.index t (1 : Fin 2) * 2000 + 2000
    omega

/-- The result array after the run is the layer of the launched arguments. -/
theorem final (c : Dev nD) : (dats m 0 c).arrAt 9 cfg0.N = result m c :=
  (dats m 0 c).arrAt_eq_of_cover 9 (result m c) (fun t _ => flushed_eq m c t) cover

/-- The kernel's run: it terminates with the result array at `result` and the arguments unchanged. -/
theorem run : θ_run defs (onTc (τ := τ) (main (F := Ideal))) ⟨m, fun _ => 0, ρ⟩ fun r => ∀ c : Dev nD,
      r.2.mem ((c : Thread nD τ).loc main_v9) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Cert.KernelIdeal.Value.run_blocks m ρ)

end Cert.KernelIdeal.ArrayValue

end
-- ==== Proof.RefTerm.lean ====
/-
  The reference's result as ONE term of its nine arguments, for any float instance: the printed host operations
  composed in program order, with the outlined functions (the sample spread, its variance, the variance's guard on a
  positive divisor, the rectifier) written out where they are called.

  `meanCol x` is the column of row means (row sums over the row length); `varCol x ddof` the column of row sums of
  squared deviations over (row length − ddof), kept only where that divisor is positive; `stdz x` the array centred by
  its row means and divided by (the square root of the variance column, plus ε); `pre` the three products with the three
  weight matrices (contracted along the weights' second axis) and the three biases, in the order the program adds them;
  `refOut` the damped update. Nothing is proved here: the run ends at this term, and it is read at an index elsewhere.
-/
import proofs.«145279_j14731737825659_1_alg».proof.Proof.Gen.ReferenceIdeal

noncomputable section

namespace Cert.ReferenceIdeal.RefTerm

open Cert.ReferenceIdeal Cert.ReferenceIdeal.Gen Idealize.ShloMosaic

variable {F : FTy → Type} [FloatOps F]

/-- The column of row means: each row's sum over the row length. -/
def meanCol (x : FVec F S8192x2000 .f32) : FVec F S8192x1 .f32 :=
  Host.divf
    (broadcastInDim S8192x1 ![0] bcast_S8192_S8192x1_0
      (Host.reduceAdd x (constant S_ .f32 0x00000000#32) reducesTo_S8192x2000_S8192_d1 h_S_))
    (broadcastInDim S8192x1 ![] bcast_S_S8192x1 (constant S_ .f32 0x44FA0000#32))

/-- The array centred by its row means. -/
def centred (x : FVec F S8192x2000 .f32) : FVec F S8192x2000 .f32 :=
  subf x (broadcastInDim S8192x2000 ![0, 1] bcast_S8192x1_S8192x2000_0_1 (meanCol x))

/-- The divisor of the variance: the row length less the degrees of freedom given up. -/
def divisor (ddof : IVec S_ 32) : FVec F S_ .f32 :=
  subf (constant S_ .f32 0x44FA0000#32) (sitofp .f32 ddof)

/-- The column of row variances: the row sums of squared deviations over the divisor, kept where the divisor is
    positive (elsewhere the not-a-number word). -/
def varCol (x : FVec F S8192x2000 .f32) (ddof : IVec S_ 32) : FVec F S8192x1 .f32 :=
  select
    (broadcastInDim S8192x1 ![] bcast_S_S8192x1 (cmpf .ogt (divisor (F := F) ddof) (constant S_ .f32 0x00000000#32)))
    (Host.divf
      (broadcastInDim S8192x1 ![0] bcast_S8192_S8192x1_0
        (Host.reduceAdd (mulf (centred x) (centred x)) (constant S_ .f32 0x00000000#32) reducesTo_S8192x2000_S8192_d1 h_S_))
      (broadcastInDim S8192x1 ![] bcast_S_S8192x1 (divisor (F := F) ddof)))
    (broadcastInDim S8192x1 ![] bcast_S_S8192x1 (id (constant S_ .f32 0x7FC00000#32)))

/-- The array standardized row by row: centred, over (the root of the variance column plus ε). -/
def stdz (x : FVec F S8192x2000 .f32) : FVec F S8192x2000 .f32 :=
  Host.divf (centred x)
    (broadcastInDim S8192x2000 ![0, 1] bcast_S8192x1_S8192x2000_0_1
      (addf (Host.sqrt (varCol x (constantI S_ 32 1#32)))
        (broadcastInDim S8192x1 ![] bcast_S_S8192x1 (constant S_ .f32 0x322BCC77#32))))

/-- A bias laid out over every row. -/
def biasRows (b : FVec F S2000 .f32) : FVec F S8192x2000 .f32 :=
  broadcastInDim S8192x2000 ![0, 1] bcast_S1x2000_S8192x2000_0_1 (broadcastInDim S1x2000 ![1] bcast_S2000_S1x2000_1 b)

/-- The product of a batch of rows with a weight matrix, both contracted along their second axis. -/
def prod (l : FVec F S8192x2000 .f32) (w : FVec F S2000x2000 .f32) : FVec F S8192x2000 .f32 :=
  Host.dotGeneral dot_S8192x2000_S2000x2000_S8192x2000_1_1_0_0_n_n none l w

/-- What drives the layer, before the rectifier. -/
def pre (a0 a1 a2 : FVec F S8192x2000 .f32) (a3 : FVec F S2000x2000 .f32) (a4 : FVec F S2000 .f32)
    (a5 : FVec F S2000x2000 .f32) (a6 : FVec F S2000 .f32) (a7 : FVec F S2000x2000 .f32) (a8 : FVec F S2000 .f32) :
    FVec F S8192x2000 .f32 :=
  addf (addf (addf (addf (addf (prod (stdz a0) a3) (biasRows a4)) (prod (stdz a2) a5)) (biasRows a6)) (prod (stdz a1) a7))
    (biasRows a8)

/-- The reference's result. -/
def refOut (a0 a1 a2 : FVec F S8192x2000 .f32) (a3 : FVec F S2000x2000 .f32) (a4 : FVec F S2000 .f32)
    (a5 : FVec F S2000x2000 .f32) (a6 : FVec F S2000 .f32) (a7 : FVec F S2000x2000 .f32) (a8 : FVec F S2000 .f32) :
    FVec F S8192x2000 .f32 :=
  addf
    (mulf (broadcastInDim S8192x2000 ![] bcast_S_S8192x2000 (constant S_ .f32 0x3F333333#32))
      (maximumf (pre a0 a1 a2 a3 a4 a5 a6 a7 a8)
        (broadcastInDim S8192x2000 ![] bcast_S_S8192x2000 (constant S_ .f32 0x00000000#32))))
    (mulf (broadcastInDim S8192x2000 ![] bcast_S_S8192x2000 (constant S_ .f32 0x3E99999A#32)) a1)

end Cert.ReferenceIdeal.RefTerm

end
-- ==== Proof.RefRun.lean ====
/-
  The reference's run. The reference program is a straight line of host operations once each outlined function (the
  sample spread of a row, its variance, the variance's guard on a positive divisor, the rectifier) is written out where
  it is called: 138 operations, each writing one buffer of its own and reading buffers written before it or arguments.

  The line is read in four stretches. Each of the first three standardizes one of the three row batches (centre each
  row by its mean, divide by the root of its variance plus ε) and touches none of the other stretches' buffers; the
  fourth contracts the three standardized batches with the three weight matrices, adds the biases, rectifies, and forms
  the damped update with the second argument. What a stretch leaves in the one buffer a later stretch reads is a closed
  term of the contents it started from; a buffer a stretch does not write keeps its contents through it. Composing the
  four gives the result as the one term `RefTerm.refOut` of the nine arguments, and no stretch writes an argument.
-/
import proofs.«145279_j14731737825659_1_alg».proof.Proof.RefTerm
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The line, in four stretches -/

/-- The first batch standardized: its row means, the spread of each row (the variance over the row length less one,
    guarded on that divisor being positive, then the root), the centred rows over the spread plus ε. -/
abbrev opsA : List (HloOp τ sig (Elt F)) :=
  [ nullary main_cst (constant S_ .f32 0x00000000#32),
    binary main_arg0 main_cst main_v0 ((fun x v => Host.reduceAdd x v reducesTo_S8192x2000_S8192_d1 h_S_) : (⟨S8192x2000, .f32⟩ : BufTy).Contents (Elt F) → (⟨S_, .f32⟩ : BufTy).Contents (Elt F) → (⟨S8192, .f32⟩ : BufTy).Contents (Elt F)),
    unary main_v0 main_v1 (broadcastInDim S8192x1 ![0] bcast_S8192_S8192x1_0 : (⟨S8192, .f32⟩ : BufTy).Contents (Elt F) → (⟨S8192x1, .f32⟩ : BufTy).Contents (Elt F)),
    nullary main_cst_0 (constant S_ .f32 0x44FA0000#32),
    unary main_cst_0 main_v2 (broadcastInDim S8192x1 ![] bcast_S_S8192x1 : (⟨S_, .f32⟩ : BufTy).Contents (Elt F) → (⟨S8192x1, .f32⟩ : BufTy).Contents (Elt F)),
    binary main_v1 main_v2 main_v3 (Host.divf : (⟨S8192x1, .f32⟩ : BufTy).Contents (Elt F) → (⟨S8192x1, .f32⟩ : BufTy).Contents (Elt F) → (⟨S8192x1, .f32⟩ : BufTy).Contents (Elt F)),
    nullary main_c (constantI S_ 32 1#32),
    TRef.nullary main_call0.call0.cst (constant S_ .f32 0x00000000#32),
    TRef.binary (.of main_arg0 : TRef sig ⟨S8192x2000, .f32⟩) main_call0.call0.cst main_call0.call0.v0 (fun x v => Host.reduceAdd x v reducesTo_S8192x2000_S8192_d1 h_S_),
    TRef.unary main_call0.call0.v0 main_call0.call0.v1 (broadcastInDim S8192x1 ![0] bcast_S8192_S8192x1_0),
    TRef.nullary main_call0.call0.cst_0 (constant S_ .f32 0x44FA0000#32),
    TRef.unary main_call0.call0.cst_0 main_call0.call0.v2 (broadcastInDim S8192x1 ![] bcast_S_S8192x1),
    TRef.binary main_call0.call0.v1 main_call0.call0.v2 main_call0.call0.v3 Host.divf,
    TRef.unary main_call0.call0.v3 main_call0.call0.v4 (broadcastInDim S8192x2000 ![0, 1] bcast_S8192x1_S8192x2000_0_1),
    TRef.binary (.of main_arg0 : TRef sig ⟨S8192x2000, .f32⟩) main_call0.call0.v4 main_call0.call0.v5 subf,
    TRef.binary main_call0.call0.v5 main_call0.call0.v5 main_call0.call0.v6 mulf,
    TRef.unary (.of main_c : TRef sig ⟨S_, .i32⟩) main_call0.call0.v7 (sitofp .f32),
    TRef.nullary main_call0.call0.cst_1 (constant S_ .f32 0x44FA0000#32),
    TRef.binary main_call0.call0.cst_1 main_call0.call0.v7 main_call0.call0.v8 subf,
    TRef.nullary main_call0.call0.cst_2 (constant S_ .f32 0x00000000#32),
    TRef.binary main_call0.call0.v6 main_call0.call0.cst_2 main_call0.call0.v9 (fun x v => Host.reduceAdd x v reducesTo_S8192x2000_S8192_d1 h_S_),
    TRef.unary main_call0.call0.v9 main_call0.call0.v10 (broadcastInDim S8192x1 ![0] bcast_S8192_S8192x1_0),
    TRef.unary main_call0.call0.v8 main_call0.call0.v11 (broadcastInDim S8192x1 ![] bcast_S_S8192x1),
    TRef.binary main_call0.call0.v10 main_call0.call0.v11 main_call0.call0.v12 Host.divf,
    TRef.nullary main_call0.call0.cst_3 (constant S_ .f32 0x00000000#32),
    TRef.binary main_call0.call0.v8 main_call0.call0.cst_3 main_call0.call0.v13 (cmpf .ogt),
    TRef.nullary main_call0.call0.cst_4 (constant S_ .f32 0x7FC00000#32),
    TRef.unary main_call0.call0.cst_4 main_call0.call0.call0.v0 id,
    TRef.unary main_call0.call0.call0.v0 main_call0.call0.call0.v1 (broadcastInDim S8192x1 ![] bcast_S_S8192x1),
    TRef.ternary main_call0.call0.v13 main_call0.call0.v12 main_call0.call0.call0.v1 main_call0.call0.call0.v2 (fun p a b => select (broadcastInDim S8192x1 ![] bcast_S_S8192x1 p) a b),
    TRef.unary main_call0.call0.call0.v2 main_call0.v1 Host.sqrt,
    unary main_v3 main_v5 (broadcastInDim S8192x2000 ![0, 1] bcast_S8192x1_S8192x2000_0_1 : (⟨S8192x1, .f32⟩ : BufTy).Contents (Elt F) → (⟨S8192x2000, .f32⟩ : BufTy).Contents (Elt F)),
    binary main_arg0 main_v5 main_v6 (subf : (⟨S8192x2000, .f32⟩ : BufTy).Contents (Elt F) → (⟨S8192x2000, .f32⟩ : BufTy).Contents (Elt F) → (⟨S8192x2000, .f32⟩ : BufTy).Contents (Elt F)),
    nullary main_cst_1 (constant S_ .f32 0x322BCC77#32),
    unary main_cst_1 main_v7 (broadcastInDim S8192x1 ![] bcast_S_S8192x1 : (⟨S_, .f32⟩ : BufTy).Contents (Elt F) → (⟨S8192x1, .f32⟩ : BufTy).Contents (Elt F)),
    binary main_v4 main_v7 main_v8 (addf : (⟨S8192x1, .f32⟩ : BufTy).Contents (Elt F) → (⟨S8192x1, .f32⟩ : BufTy).Contents (Elt F) → (⟨S8192x1, .f32⟩ : BufTy).Contents (Elt F)),
    unary main_v8 main_v9 (broadcastInDim S8192x2000 ![0, 1] bcast_S8192x1_S8192x2000_0_1 : (⟨S8192x1, .f32⟩ : BufTy).Contents (Elt F) → (⟨S8192x2000, .f32⟩ : BufTy).Contents (Elt F)),
    binary main_v6 main_v9 main_v10 (Host.divf : (⟨S8192x2000, .f32⟩ : BufTy).Contents (Elt F) → (⟨S8192x2000, .f32⟩ : BufTy).Contents (Elt F) → (⟨S8192x2000, .f32⟩ : BufTy).Contents (Elt F)) ]

/-- The third batch standardized, the same way. -/
abbrev opsB : List (HloOp τ sig (Elt F)) :=
  [ nullary main_cst_2 (constant S_ .f32 0x00000000#32),
    binary main_arg2 main_cst_2 main_v11 ((fun x v => Host.reduceAdd x v reducesTo_S8192x2000_S8192_d1 h_S_) : (⟨S8192x2000, .f32⟩ : BufTy).Contents (Elt F) → (⟨S_, .f32⟩ : BufTy).Contents (Elt F) → (⟨S8192, .f32⟩ : BufTy).Contents (Elt F)),
    unary main_v11 main_v12 (broadcastInDim S8192x1 ![0] bcast_S8192_S8192x1_0 : (⟨S8192, .f32⟩ : BufTy).Contents (Elt F) → (⟨S8192x1, .f32⟩ : BufTy).Contents (Elt F)),
    nullary main_cst_3 (constant S_ .f32 0x44FA0000#32),
    unary main_cst_3 main_v13 (broadcastInDim S8192x1 ![] bcast_S_S8192x1 : (⟨S_, .f32⟩ : BufTy).Contents (Elt F) → (⟨S8192x1, .f32⟩ : BufTy).Contents (Elt F)),
    binary main_v12 main_v13 main_v14 (Host.divf : (⟨S8192x1, .f32⟩ : BufTy).Contents (Elt F) → (⟨S8192x1, .f32⟩ : BufTy).Contents (Elt F) → (⟨S8192x1, .f32⟩ : BufTy).Contents (Elt F)),
    nullary main_c_4 (constantI S_ 32 1#32),
    TRef.nullary main_call1.call0.cst (constant S_ .f32 0x00000000#32),
    TRef.binary (.of main_arg2 : TRef sig ⟨S8192x2000, .f32⟩) main_call1.call0.cst main_call1.call0.v0 (fun x v => Host.reduceAdd x v reducesTo_S8192x2000_S8192_d1 h_S_),
    TRef.unary main_call1.call0.v0 main_call1.call0.v1 (broadcastInDim S8192x1 ![0] bcast_S8192_S8192x1_0),
    TRef.nullary main_call1.call0.cst_0 (constant S_ .f32 0x44FA0000#32),
    TRef.unary main_call1.call0.cst_0 main_call1.call0.v2 (broadcastInDim S8192x1 ![] bcast_S_S8192x1),
    TRef.binary main_call1.call0.v1 main_call1.call0.v2 main_call1.call0.v3 Host.divf,
    TRef.unary main_call1.call0.v3 main_call1.call0.v4 (broadcastInDim S8192x2000 ![0, 1] bcast_S8192x1_S8192x2000_0_1),
    TRef.binary (.of main_arg2 : TRef sig ⟨S8192x2000, .f32⟩) main_call1.call0.v4 main_call1.call0.v5 subf,
    TRef.binary main_call1.call0.v5 main_call1.call0.v5 main_call1.call0.v6 mulf,
    TRef.unary (.of main_c_4 : TRef sig ⟨S_, .i32⟩) main_call1.call0.v7 (sitofp .f32),
    TRef.nullary main_call1.call0.cst_1 (constant S_ .f32 0x44FA0000#32),
    TRef.binary main_call1.call0.cst_1 main_call1.call0.v7 main_call1.call0.v8 subf,
    TRef.nullary main_call1.call0.cst_2 (constant S_ .f32 0x00000000#32),
    TRef.binary main_call1.call0.v6 main_call1.call0.cst_2 main_call1.call0.v9 (fun x v => Host.reduceAdd x v reducesTo_S8192x2000_S8192_d1 h_S_),
    TRef.unary main_call1.call0.v9 main_call1.call0.v10 (broadcastInDim S8192x1 ![0] bcast_S8192_S8192x1_0),
    TRef.unary main_call1.call0.v8 main_call1.call0.v11 (broadcastInDim S8192x1 ![] bcast_S_S8192x1),
    TRef.binary main_call1.call0.v10 main_call1.call0.v11 main_call1.call0.v12 Host.divf,
    TRef.nullary main_call1.call0.cst_3 (constant S_ .f32 0x00000000#32),
    TRef.binary main_call1.call0.v8 main_call1.call0.cst_3 main_call1.call0.v13 (cmpf .ogt),
    TRef.nullary main_call1.call0.cst_4 (constant S_ .f32 0x7FC00000#32),
    TRef.unary main_call1.call0.cst_4 main_call1.call0.call0.v0 id,
    TRef.unary main_call1.call0.call0.v0 main_call1.call0.call0.v1 (broadcastInDim S8192x1 ![] bcast_S_S8192x1),
    TRef.ternary main_call1.call0.v13 main_call1.call0.v12 main_call1.call0.call0.v1 main_call1.call0.call0.v2 (fun p a b => select (broadcastInDim S8192x1 ![] bcast_S_S8192x1 p) a b),
    TRef.unary main_call1.call0.call0.v2 main_call1.v1 Host.sqrt,
    unary main_v14 main_v16 (broadcastInDim S8192x2000 ![0, 1] bcast_S8192x1_S8192x2000_0_1 : (⟨S8192x1, .f32⟩ : BufTy).Contents (Elt F) → (⟨S8192x2000, .f32⟩ : BufTy).Contents (Elt F)),
    binary main_arg2 main_v16 main_v17 (subf : (⟨S8192x2000, .f32⟩ : BufTy).Contents (Elt F) → (⟨S8192x2000, .f32⟩ : BufTy).Contents (Elt F) → (⟨S8192x2000, .f32⟩ : BufTy).Contents (Elt F)),
    nullary main_cst_5 (constant S_ .f32 0x322BCC77#32),
    unary main_cst_5 main_v18 (broadcastInDim S8192x1 ![] bcast_S_S8192x1 : (⟨S_, .f32⟩ : BufTy).Contents (Elt F) → (⟨S8192x1, .f32⟩ : BufTy).Contents (Elt F)),
    binary main_v15 main_v18 main_v19 (addf : (⟨S8192x1, .f32⟩ : BufTy).Contents (Elt F) → (⟨S8192x1, .f32⟩ : BufTy).Contents (Elt F) → (⟨S8192x1, .f32⟩ : BufTy).Contents (Elt F)),
    unary main_v19 main_v20 (broadcastInDim S8192x2000 ![0, 1] bcast_S8192x1_S8192x2000_0_1 : (⟨S8192x1, .f32⟩ : BufTy).Contents (Elt F) → (⟨S8192x2000, .f32⟩ : BufTy).Contents (Elt F)),
    binary main_v17 main_v20 main_v21 (Host.divf : (⟨S8192x2000, .f32⟩ : BufTy).Contents (Elt F) → (⟨S8192x2000, .f32⟩ : BufTy).Contents (Elt F) → (⟨S8192x2000, .f32⟩ : BufTy).Contents (Elt F)) ]

/-- The second batch standardized, the same way. -/
abbrev opsC : List (HloOp τ sig (Elt F)) :=
  [ nullary main_cst_6 (constant S_ .f32 0x00000000#32),
    binary main_arg1 main_cst_6 main_v22 ((fun x v => Host.reduceAdd x v reducesTo_S8192x2000_S8192_d1 h_S_) : (⟨S8192x2000, .f32⟩ : BufTy).Contents (Elt F) → (⟨S_, .f32⟩ : BufTy).Contents (Elt F) → (⟨S8192, .f32⟩ : BufTy).Contents (Elt F)),
    unary main_v22 main_v23 (broadcastInDim S8192x1 ![0] bcast_S8192_S8192x1_0 : (⟨S8192, .f32⟩ : BufTy).Contents (Elt F) → (⟨S8192x1, .f32⟩ : BufTy).Contents (Elt F)),
    nullary main_cst_7 (constant S_ .f32 0x44FA0000#32),
    unary main_cst_7 main_v24 (broadcastInDim S8192x1 ![] bcast_S_S8192x1 : (⟨S_, .f32⟩ : BufTy).Contents (Elt F) → (⟨S8192x1, .f32⟩ : BufTy).Contents (Elt F)),
    binary main_v23 main_v24 main_v25 (Host.divf : (⟨S8192x1, .f32⟩ : BufTy).Contents (Elt F) → (⟨S8192x1, .f32⟩ : BufTy).Contents (Elt F) → (⟨S8192x1, .f32⟩ : BufTy).Contents (Elt F)),
    nullary main_c_8 (constantI S_ 32 1#32),
    TRef.nullary main_call2.call0.cst (constant S_ .f32 0x00000000#32),
    TRef.binary (.of main_arg1 : TRef sig ⟨S8192x2000, .f32⟩) main_call2.call0.cst main_call2.call0.v0 (fun x v => Host.reduceAdd x v reducesTo_S8192x2000_S8192_d1 h_S_),
    TRef.unary main_call2.call0.v0 main_call2.call0.v1 (broadcastInDim S8192x1 ![0] bcast_S8192_S8192x1_0),
    TRef.nullary main_call2.call0.cst_0 (constant S_ .f32 0x44FA0000#32),
    TRef.unary main_call2.call0.cst_0 main_call2.call0.v2 (broadcastInDim S8192x1 ![] bcast_S_S8192x1),
    TRef.binary main_call2.call0.v1 main_call2.call0.v2 main_call2.call0.v3 Host.divf,
    TRef.unary main_call2.call0.v3 main_call2.call0.v4 (broadcastInDim S8192x2000 ![0, 1] bcast_S8192x1_S8192x2000_0_1),
    TRef.binary (.of main_arg1 : TRef sig ⟨S8192x2000, .f32⟩) main_call2.call0.v4 main_call2.call0.v5 subf,
    TRef.binary main_call2.call0.v5 main_call2.call0.v5 main_call2.call0.v6 mulf,
    TRef.unary (.of main_c_8 : TRef sig ⟨S_, .i32⟩) main_call2.call0.v7 (sitofp .f32),
    TRef.nullary main_call2.call0.cst_1 (constant S_ .f32 0x44FA0000#32),
    TRef.binary main_call2.call0.cst_1 main_call2.call0.v7 main_call2.call0.v8 subf,
    TRef.nullary main_call2.call0.cst_2 (constant S_ .f32 0x00000000#32),
    TRef.binary main_call2.call0.v6 main_call2.call0.cst_2 main_call2.call0.v9 (fun x v => Host.reduceAdd x v reducesTo_S8192x2000_S8192_d1 h_S_),
    TRef.unary main_call2.call0.v9 main_call2.call0.v10 (broadcastInDim S8192x1 ![0] bcast_S8192_S8192x1_0),
    TRef.unary main_call2.call0.v8 main_call2.call0.v11 (broadcastInDim S8192x1 ![] bcast_S_S8192x1),
    TRef.binary main_call2.call0.v10 main_call2.call0.v11 main_call2.call0.v12 Host.divf,
    TRef.nullary main_call2.call0.cst_3 (constant S_ .f32 0x00000000#32),
    TRef.binary main_call2.call0.v8 main_call2.call0.cst_3 main_call2.call0.v13 (cmpf .ogt),
    TRef.nullary main_call2.call0.cst_4 (constant S_ .f32 0x7FC00000#32),
    TRef.unary main_call2.call0.cst_4 main_call2.call0.call0.v0 id,
    TRef.unary main_call2.call0.call0.v0 main_call2.call0.call0.v1 (broadcastInDim S8192x1 ![] bcast_S_S8192x1),
    TRef.ternary main_call2.call0.v13 main_call2.call0.v12 main_call2.call0.call0.v1 main_call2.call0.call0.v2 (fun p a b => select (broadcastInDim S8192x1 ![] bcast_S_S8192x1 p) a b),
    TRef.unary main_call2.call0.call0.v2 main_call2.v1 Host.sqrt,
    unary main_v25 main_v27 (broadcastInDim S8192x2000 ![0, 1] bcast_S8192x1_S8192x2000_0_1 : (⟨S8192x1, .f32⟩ : BufTy).Contents (Elt F) → (⟨S8192x2000, .f32⟩ : BufTy).Contents (Elt F)),
    binary main_arg1 main_v27 main_v28 (subf : (⟨S8192x2000, .f32⟩ : BufTy).Contents (Elt F) → (⟨S8192x2000, .f32⟩ : BufTy).Contents (Elt F) → (⟨S8192x2000, .f32⟩ : BufTy).Contents (Elt F)),
    nullary main_cst_9 (constant S_ .f32 0x322BCC77#32),
    unary main_cst_9 main_v29 (broadcastInDim S8192x1 ![] bcast_S_S8192x1 : (⟨S_, .f32⟩ : BufTy).Contents (Elt F) → (⟨S8192x1, .f32⟩ : BufTy).Contents (Elt F)),
    binary main_v26 main_v29 main_v30 (addf : (⟨S8192x1, .f32⟩ : BufTy).Contents (Elt F) → (⟨S8192x1, .f32⟩ : BufTy).Contents (Elt F) → (⟨S8192x1, .f32⟩ : BufTy).Contents (Elt F)),
    unary main_v30 main_v31 (broadcastInDim S8192x2000 ![0, 1] bcast_S8192x1_S8192x2000_0_1 : (⟨S8192x1, .f32⟩ : BufTy).Contents (Elt F) → (⟨S8192x2000, .f32⟩ : BufTy).Contents (Elt F)),
    binary main_v28 main_v31 main_v32 (Host.divf : (⟨S8192x2000, .f32⟩ : BufTy).Contents (Elt F) → (⟨S8192x2000, .f32⟩ : BufTy).Contents (Elt F) → (⟨S8192x2000, .f32⟩ : BufTy).Contents (Elt F)) ]

/-- The three products with the weight matrices and the three biases summed in order, the rectifier, and the damped
    update with the second batch. -/
abbrev opsD : List (HloOp τ sig (Elt F)) :=
  [ binary main_v10 main_arg3 main_v33 ((fun l r => Host.dotGeneral dot_S8192x2000_S2000x2000_S8192x2000_1_1_0_0_n_n none l r) : (⟨S8192x2000, .f32⟩ : BufTy).Contents (Elt F) → (⟨S2000x2000, .f32⟩ : BufTy).Contents (Elt F) → (⟨S8192x2000, .f32⟩ : BufTy).Contents (Elt F)),
    unary main_arg4 main_v34 (broadcastInDim S1x2000 ![1] bcast_S2000_S1x2000_1 : (⟨S2000, .f32⟩ : BufTy).Contents (Elt F) → (⟨S1x2000, .f32⟩ : BufTy).Contents (Elt F)),
    unary main_v34 main_v35 (broadcastInDim S8192x2000 ![0, 1] bcast_S1x2000_S8192x2000_0_1 : (⟨S1x2000, .f32⟩ : BufTy).Contents (Elt F) → (⟨S8192x2000, .f32⟩ : BufTy).Contents (Elt F)),
    binary main_v33 main_v35 main_v36 (addf : (⟨S8192x2000, .f32⟩ : BufTy).Contents (Elt F) → (⟨S8192x2000, .f32⟩ : BufTy).Contents (Elt F) → (⟨S8192x2000, .f32⟩ : BufTy).Contents (Elt F)),
    binary main_v21 main_arg5 main_v37 ((fun l r => Host.dotGeneral dot_S8192x2000_S2000x2000_S8192x2000_1_1_0_0_n_n none l r) : (⟨S8192x2000, .f32⟩ : BufTy).Contents (Elt F) → (⟨S2000x2000, .f32⟩ : BufTy).Contents (Elt F) → (⟨S8192x2000, .f32⟩ : BufTy).Contents (Elt F)),
    binary main_v36 main_v37 main_v38 (addf : (⟨S8192x2000, .f32⟩ : BufTy).Contents (Elt F) → (⟨S8192x2000, .f32⟩ : BufTy).Contents (Elt F) → (⟨S8192x2000, .f32⟩ : BufTy).Contents (Elt F)),
    unary main_arg6 main_v39 (broadcastInDim S1x2000 ![1] bcast_S2000_S1x2000_1 : (⟨S2000, .f32⟩ : BufTy).Contents (Elt F) → (⟨S1x2000, .f32⟩ : BufTy).Contents (Elt F)),
    unary main_v39 main_v40 (broadcastInDim S8192x2000 ![0, 1] bcast_S1x2000_S8192x2000_0_1 : (⟨S1x2000, .f32⟩ : BufTy).Contents (Elt F) → (⟨S8192x2000, .f32⟩ : BufTy).Contents (Elt F)),
    binary main_v38 main_v40 main_v41 (addf : (⟨S8192x2000, .f32⟩ : BufTy).Contents (Elt F) → (⟨S8192x2000, .f32⟩ : BufTy).Contents (Elt F) → (⟨S8192x2000, .f32⟩ : BufTy).Contents (Elt F)),
    binary main_v32 main_arg7 main_v42 ((fun l r => Host.dotGeneral dot_S8192x2000_S2000x2000_S8192x2000_1_1_0_0_n_n none l r) : (⟨S8192x2000, .f32⟩ : BufTy).Contents (Elt F) → (⟨S2000x2000, .f32⟩ : BufTy).Contents (Elt F) → (⟨S8192x2000, .f32⟩ : BufTy).Contents (Elt F)),
    binary main_v41 main_v42 main_v43 (addf : (⟨S8192x2000, .f32⟩ : BufTy).Contents (Elt F) → (⟨S8192x2000, .f32⟩ : BufTy).Contents (Elt F) → (⟨S8192x2000, .f32⟩ : BufTy).Contents (Elt F)),
    unary main_arg8 main_v44 (broadcastInDim S1x2000 ![1] bcast_S2000_S1x2000_1 : (⟨S2000, .f32⟩ : BufTy).Contents (Elt F) → (⟨S1x2000, .f32⟩ : BufTy).Contents (Elt F)),
    unary main_v44 main_v45 (broadcastInDim S8192x2000 ![0, 1] bcast_S1x2000_S8192x2000_0_1 : (⟨S1x2000, .f32⟩ : BufTy).Contents (Elt F) → (⟨S8192x2000, .f32⟩ : BufTy).Contents (Elt F)),
    binary main_v43 main_v45 main_v46 (addf : (⟨S8192x2000, .f32⟩ : BufTy).Contents (Elt F) → (⟨S8192x2000, .f32⟩ : BufTy).Contents (Elt F) → (⟨S8192x2000, .f32⟩ : BufTy).Contents (Elt F)),
    TRef.nullary main_call3.cst (constant S_ .f32 0x00000000#32),
    TRef.unary main_call3.cst main_call3.v0 (broadcastInDim S8192x2000 ![] bcast_S_S8192x2000),
    TRef.binary (.of main_v46 : TRef sig ⟨S8192x2000, .f32⟩) main_call3.v0 main_call3.v1 maximumf,
    nullary main_cst_10 (constant S_ .f32 0x3F333333#32),
    unary main_cst_10 main_v48 (broadcastInDim S8192x2000 ![] bcast_S_S8192x2000 : (⟨S_, .f32⟩ : BufTy).Contents (Elt F) → (⟨S8192x2000, .f32⟩ : BufTy).Contents (Elt F)),
    binary main_v48 main_v47 main_v49 (mulf : (⟨S8192x2000, .f32⟩ : BufTy).Contents (Elt F) → (⟨S8192x2000, .f32⟩ : BufTy).Contents (Elt F) → (⟨S8192x2000, .f32⟩ : BufTy).Contents (Elt F)),
    nullary main_cst_11 (constant S_ .f32 0x3E99999A#32),
    unary main_cst_11 main_v50 (broadcastInDim S8192x2000 ![] bcast_S_S8192x2000 : (⟨S_, .f32⟩ : BufTy).Contents (Elt F) → (⟨S8192x2000, .f32⟩ : BufTy).Contents (Elt F)),
    binary main_v50 main_arg1 main_v51 (mulf : (⟨S8192x2000, .f32⟩ : BufTy).Contents (Elt F) → (⟨S8192x2000, .f32⟩ : BufTy).Contents (Elt F) → (⟨S8192x2000, .f32⟩ : BufTy).Contents (Elt F)),
    binary main_v49 main_v51 main_v52 (addf : (⟨S8192x2000, .f32⟩ : BufTy).Contents (Elt F) → (⟨S8192x2000, .f32⟩ : BufTy).Contents (Elt F) → (⟨S8192x2000, .f32⟩ : BufTy).Contents (Elt F)) ]

/-- The whole line: the four stretches in order. -/
abbrev ops : List (HloOp τ sig (Elt F)) := opsA ++ (opsB ++ (opsC ++ opsD))

/-! ## @main is that line -/

set_option maxRecDepth 8192 in
set_option maxHeartbeats 4000000 in
/-- With each function's body written at its call and sequencing re-associated, @main and the line are the same chain
    of steps. -/
theorem main_eq (c : Dev nD) : main (F := F) c = seq ops := by
  simp only [main, main_part0, main_part1, fn_std.body, fn_var.body, fn_where.body, fn_relu.body, ops, opsA, opsB, opsC,
    opsD, seq_append, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore buffers only -/

theorem opsA_sub : (opsA : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., binary_bufs_sub ..⟩
theorem opsB_sub : (opsB : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., binary_bufs_sub ..⟩
theorem opsC_sub : (opsC : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., binary_bufs_sub ..⟩
theorem opsD_sub : (opsD : List (HloOp τ sig (Elt F))).Forall fun op => op.bufs ⊆ tcRefs τ sig :=
  ⟨binary_bufs_sub .., unary_bufs_sub .., unary_bufs_sub .., binary_bufs_sub .., binary_bufs_sub .., binary_bufs_sub .., unary_bufs_sub .., unary_bufs_sub .., binary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub ..⟩
theorem ops_sub : (ops : List (HloOp τ sig (Elt F))).Forall fun op => op.bufs ⊆ tcRefs τ sig :=
  List.forall_iff_forall_mem.mpr fun op h => by
    simp only [ops, List.mem_append] at h
    rcases h with h | h | h | h
    exacts [List.forall_iff_forall_mem.mp opsA_sub op h, List.forall_iff_forall_mem.mp opsB_sub op h,
      List.forall_iff_forall_mem.mp opsC_sub op h, List.forall_iff_forall_mem.mp opsD_sub op h]

/-! ## What each stretch leaves -/

/-- Two lines run one after the other: the second from what the first leaves. -/
theorem after_two : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_two l₁ l₂]

set_option maxRecDepth 8192 in
set_option maxHeartbeats 4000000 in
/-- The first stretch leaves the first batch standardized: each operation's result read at its own buffer is its
    function of what its operands' buffers hold, and composed in order that is `RefTerm.stdz` written out. -/
theorem stdA (V : Valuation τ sig (Elt F)) :
    after opsA V (main_v10 : DevRef τ sig) = RefTerm.stdz (V (main_arg0 : DevRef τ sig)) := by
  after_results_simp
  rfl

set_option maxRecDepth 8192 in
set_option maxHeartbeats 4000000 in
/-- The second stretch leaves the third batch standardized. -/
theorem stdB (V : Valuation τ sig (Elt F)) :
    after opsB V (main_v21 : DevRef τ sig) = RefTerm.stdz (V (main_arg2 : DevRef τ sig)) := by
  after_results_simp
  rfl

set_option maxRecDepth 8192 in
set_option maxHeartbeats 4000000 in
/-- The third stretch leaves the second batch standardized. -/
theorem stdC (V : Valuation τ sig (Elt F)) :
    after opsC V (main_v32 : DevRef τ sig) = RefTerm.stdz (V (main_arg1 : DevRef τ sig)) := by
  after_results_simp
  rfl

set_option maxRecDepth 8192 in
set_option maxHeartbeats 4000000 in
/-- The last stretch, from the three standardized batches where the first three left them: the products and biases
    summed in the program's order, rectified, damped, plus the damped second batch. -/
theorem tailD (V : Valuation τ sig (Elt F)) :
    after opsD V (main_v52 : DevRef τ sig)
      = addf
          (mulf (broadcastInDim S8192x2000 ![] bcast_S_S8192x2000 (constant S_ .f32 0x3F333333#32))
            (maximumf
              (addf
                (addf
                  (addf
                    (addf (addf (RefTerm.prod (V (main_v10 : DevRef τ sig)) (V (main_arg3 : DevRef τ sig))) (RefTerm.biasRows (V (main_arg4 : DevRef τ sig))))
                      (RefTerm.prod (V (main_v21 : DevRef τ sig)) (V (main_arg5 : DevRef τ sig))))
                    (RefTerm.biasRows (V (main_arg6 : DevRef τ sig))))
                  (RefTerm.prod (V (main_v32 : DevRef τ sig)) (V (main_arg7 : DevRef τ sig))))
                (RefTerm.biasRows (V (main_arg8 : DevRef τ sig))))
              (broadcastInDim S8192x2000 ![] bcast_S_S8192x2000 (constant S_ .f32 0x00000000#32))))
          (mulf (broadcastInDim S8192x2000 ![] bcast_S_S8192x2000 (constant S_ .f32 0x3E99999A#32)) (V (main_arg1 : DevRef τ sig))) := by
  after_results_simp
  rfl

/-! ## What each stretch leaves alone

Each operation writes exactly one buffer; a stretch's written buffers, listed, are all it can change. -/

/-- The buffers the first stretch writes. -/
abbrev wA : List (Ref sig .tc) :=
  [main_cst, main_v0, main_v1, main_cst_0, main_v2, main_v3, main_c, main_call0.call0.cst.ref,
    main_call0.call0.v0.ref, main_call0.call0.v1.ref, main_call0.call0.cst_0.ref, main_call0.call0.v2.ref,
    main_call0.call0.v3.ref, main_call0.call0.v4.ref, main_call0.call0.v5.ref, main_call0.call0.v6.ref,
    main_call0.call0.v7.ref, main_call0.call0.cst_1.ref, main_call0.call0.v8.ref, main_call0.call0.cst_2.ref,
    main_call0.call0.v9.ref, main_call0.call0.v10.ref, main_call0.call0.v11.ref, main_call0.call0.v12.ref,
    main_call0.call0.cst_3.ref, main_call0.call0.v13.ref, main_call0.call0.cst_4.ref, main_call0.call0.call0.v0.ref,
    main_call0.call0.call0.v1.ref, main_call0.call0.call0.v2.ref, main_call0.v1.ref, main_v5, main_v6, main_cst_1,
    main_v7, main_v8, main_v9, main_v10]
/-- The buffers the second stretch writes. -/
abbrev wB : List (Ref sig .tc) :=
  [main_cst_2, main_v11, main_v12, main_cst_3, main_v13, main_v14, main_c_4, main_call1.call0.cst.ref,
    main_call1.call0.v0.ref, main_call1.call0.v1.ref, main_call1.call0.cst_0.ref, main_call1.call0.v2.ref,
    main_call1.call0.v3.ref, main_call1.call0.v4.ref, main_call1.call0.v5.ref, main_call1.call0.v6.ref,
    main_call1.call0.v7.ref, main_call1.call0.cst_1.ref, main_call1.call0.v8.ref, main_call1.call0.cst_2.ref,
    main_call1.call0.v9.ref, main_call1.call0.v10.ref, main_call1.call0.v11.ref, main_call1.call0.v12.ref,
    main_call1.call0.cst_3.ref, main_call1.call0.v13.ref, main_call1.call0.cst_4.ref, main_call1.call0.call0.v0.ref,
    main_call1.call0.call0.v1.ref, main_call1.call0.call0.v2.ref, main_call1.v1.ref, main_v16, main_v17, main_cst_5,
    main_v18, main_v19, main_v20, main_v21]
/-- The buffers the third stretch writes. -/
abbrev wC : List (Ref sig .tc) :=
  [main_cst_6, main_v22, main_v23, main_cst_7, main_v24, main_v25, main_c_8, main_call2.call0.cst.ref,
    main_call2.call0.v0.ref, main_call2.call0.v1.ref, main_call2.call0.cst_0.ref, main_call2.call0.v2.ref,
    main_call2.call0.v3.ref, main_call2.call0.v4.ref, main_call2.call0.v5.ref, main_call2.call0.v6.ref,
    main_call2.call0.v7.ref, main_call2.call0.cst_1.ref, main_call2.call0.v8.ref, main_call2.call0.cst_2.ref,
    main_call2.call0.v9.ref, main_call2.call0.v10.ref, main_call2.call0.v11.ref, main_call2.call0.v12.ref,
    main_call2.call0.cst_3.ref, main_call2.call0.v13.ref, main_call2.call0.cst_4.ref, main_call2.call0.call0.v0.ref,
    main_call2.call0.call0.v1.ref, main_call2.call0.call0.v2.ref, main_call2.v1.ref, main_v27, main_v28, main_cst_9,
    main_v29, main_v30, main_v31, main_v32]
/-- The buffers the last stretch writes. -/
abbrev wD : List (Ref sig .tc) :=
  [main_v33, main_v34, main_v35, main_v36, main_v37, main_v38, main_v39, main_v40, main_v41, main_v42, main_v43,
    main_v44, main_v45, main_v46, main_call3.cst.ref, main_call3.v0.ref, main_call3.v1.ref, main_cst_10, main_v48,
    main_v49, main_cst_11, main_v50, main_v51, main_v52]

theorem opsA_writes :
    (opsA : List (HloOp τ sig (Elt F))).Forall fun op => op.writes ⊆ (wA.map (Proc.devRef (τ := τ) .tc)).toFinset := by
  simp only [opsA, List.Forall, nullary_writes, unary_writes, binary_writes, ternary_writes, Finset.singleton_subset_iff,
    List.mem_toFinset]
  repeat' apply And.intro
  all_goals exact List.mem_map_of_mem (by decide)
theorem keepA (V : Valuation τ sig (Elt F)) (r : Ref sig .tc) (h : r ∉ wA) :
    after opsA V (Proc.devRef .tc r) = V (Proc.devRef .tc r) :=
  after_of_writes_sub opsA V opsA_writes h
theorem opsB_writes :
    (opsB : List (HloOp τ sig (Elt F))).Forall fun op => op.writes ⊆ (wB.map (Proc.devRef (τ := τ) .tc)).toFinset := by
  simp only [opsB, List.Forall, nullary_writes, unary_writes, binary_writes, ternary_writes, Finset.singleton_subset_iff,
    List.mem_toFinset]
  repeat' apply And.intro
  all_goals exact List.mem_map_of_mem (by decide)
theorem keepB (V : Valuation τ sig (Elt F)) (r : Ref sig .tc) (h : r ∉ wB) :
    after opsB V (Proc.devRef .tc r) = V (Proc.devRef .tc r) :=
  after_of_writes_sub opsB V opsB_writes h
theorem opsC_writes :
    (opsC : List (HloOp τ sig (Elt F))).Forall fun op => op.writes ⊆ (wC.map (Proc.devRef (τ := τ) .tc)).toFinset := by
  simp only [opsC, List.Forall, nullary_writes, unary_writes, binary_writes, ternary_writes, Finset.singleton_subset_iff,
    List.mem_toFinset]
  repeat' apply And.intro
  all_goals exact List.mem_map_of_mem (by decide)
theorem keepC (V : Valuation τ sig (Elt F)) (r : Ref sig .tc) (h : r ∉ wC) :
    after opsC V (Proc.devRef .tc r) = V (Proc.devRef .tc r) :=
  after_of_writes_sub opsC V opsC_writes h
theorem opsD_writes :
    (opsD : List (HloOp τ sig (Elt F))).Forall fun op => op.writes ⊆ (wD.map (Proc.devRef (τ := τ) .tc)).toFinset := by
  simp only [opsD, List.Forall, nullary_writes, unary_writes, binary_writes, ternary_writes, Finset.singleton_subset_iff,
    List.mem_toFinset]
  repeat' apply And.intro
  all_goals exact List.mem_map_of_mem (by decide)
theorem keepD (V : Valuation τ sig (Elt F)) (r : Ref sig .tc) (h : r ∉ wD) :
    after opsD V (Proc.devRef .tc r) = V (Proc.devRef .tc r) :=
  after_of_writes_sub opsD V opsD_writes h

/-! ## The whole line -/

/-- The line read as its four stretches, each from what the one before leaves. -/
theorem after_ops (V : Valuation τ sig (Elt F)) :
    after ops V = after opsD (after opsC (after opsB (after opsA V))) := by
  simp only [ops, after_two]

/-- The result buffer after the whole line is `RefTerm.refOut` of the nine arguments: the last stretch's term, with each
    buffer it reads traced back — a standardized batch to the stretch that made it, through the stretches after it that
    leave it alone; an argument through every stretch. -/
theorem out_eq (V : Valuation τ sig (Elt F)) :
    after ops V (main_v52 : DevRef τ sig)
      = RefTerm.refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) := by
  rw [after_ops, tailD, stdC,
    keepC _ main_v10 (by decide), keepC _ main_v21 (by decide), keepC _ main_arg1 (by decide), keepC _ main_arg3 (by decide),
    keepC _ main_arg4 (by decide), keepC _ main_arg5 (by decide), keepC _ main_arg6 (by decide), keepC _ main_arg7 (by decide),
    keepC _ main_arg8 (by decide), stdB,
    keepB _ main_v10 (by decide), keepB _ main_arg1 (by decide), keepB _ main_arg3 (by decide), keepB _ main_arg4 (by decide),
    keepB _ main_arg5 (by decide), keepB _ main_arg6 (by decide), keepB _ main_arg7 (by decide), keepB _ main_arg8 (by decide),
    stdA,
    keepA _ main_arg1 (by decide), keepA _ main_arg2 (by decide), keepA _ main_arg3 (by decide), keepA _ main_arg4 (by decide),
    keepA _ main_arg5 (by decide), keepA _ main_arg6 (by decide), keepA _ main_arg7 (by decide), keepA _ main_arg8 (by decide)]
  rfl

/-- A buffer none of the four stretches writes holds after the line what it held before. -/
theorem kept (V : Valuation τ sig (Elt F)) (r : Ref sig .tc) (hA : r ∉ wA) (hB : r ∉ wB) (hC : r ∉ wC) (hD : r ∉ wD) :
    after ops V (Proc.devRef .tc r) = V (Proc.devRef .tc r) := by
  rw [after_ops, keepD _ r hD, keepC _ r hC, keepB _ r hB, keepA _ r hA]

/-! ## The run -/

/-- On every device, for any float values, from any memory with zero counters: every weakly fair execution of @main
    terminates with the result buffer at `RefTerm.refOut` of the nine arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v52)
          = RefTerm.refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v52).trans (out_eq (launchContents m c)),
      (h c main_arg0).trans (kept _ main_arg0 (by decide) (by decide) (by decide) (by decide)),
      (h c main_arg1).trans (kept _ main_arg1 (by decide) (by decide) (by decide) (by decide)),
      (h c main_arg2).trans (kept _ main_arg2 (by decide) (by decide) (by decide) (by decide)),
      (h c main_arg3).trans (kept _ main_arg3 (by decide) (by decide) (by decide) (by decide)),
      (h c main_arg4).trans (kept _ main_arg4 (by decide) (by decide) (by decide) (by decide)),
      (h c main_arg5).trans (kept _ main_arg5 (by decide) (by decide) (by decide) (by decide)),
      (h c main_arg6).trans (kept _ main_arg6 (by decide) (by decide) (by decide) (by decide)),
      (h c main_arg7).trans (kept _ main_arg7 (by decide) (by decide) (by decide) (by decide)),
      (h c main_arg8).trans (kept _ main_arg8 (by decide) (by decide) (by decide) (by decide))⟩)
    (run_seq scopedRefs_eq scopedSems_eq defs main (fun _ => ops) main_eq (fun _ => ops_sub) m ρ)

end Cert.ReferenceIdeal.RefRun

end
-- ==== Proof.LibRowsProduct.lean ====
/-
  The product of an [R, K] array with the transpose of a [C, K] array — both operands contracted along their axis 1,
  no batch axes — read at (r, c) on the extended reals: the sum over k of  lhs(r, k) · rhs(c, k) . With the two operands
  one array this is the Gram matrix of its rows. It holds for the matrix unit's product into a zero accumulator and for
  the host's general product alike: both are the same sum over the one-axis contraction index, re-indexed here by its
  one coordinate.
-/
import Idealize.ShloMosaic.PureOps.Ideal.Laws
import Idealize.ShloMosaic.Lib.ValueIdx

noncomputable section

open scoped BigOperators

namespace Cert.LibRowsProduct

open Idealize.ShloMosaic Idealize.ShloMosaic.ValueIdx

/-- A coordinate of an index does not depend on how its axis number is written. -/
private theorem idx_val_congr {s : Shape} (j : s.Idx) (p q : Nat) (hp : p < s.rank) (hq : q < s.rank) (h : p = q) :
    (j ⟨p, hp⟩).val = (j ⟨q, hq⟩).val := by subst h; rfl

/-- The left operand's row is the result's row. -/
theorem lhsIdx_row {R K C : ℕ} (d : DotDims ⟨2, ![R, K]⟩ ⟨2, ![C, K]⟩ ⟨2, ![R, C]⟩)
    (h3 : d.lhsNonContracting = [0]) (h5 : d.lhsBatch = [])
    (j : (⟨2, ![R, C]⟩ : Shape).Idx) (k : d.contr.Idx) : (d.lhsIdx j k 0).val = (j 0).val := by
  have hb : (0 : Fin 2) ∉ d.lhsBatch := by rw [h5]; exact List.not_mem_nil
  have hn : (0 : Fin 2) ∈ d.lhsNonContracting := by rw [h3]; exact List.mem_singleton.mpr rfl
  unfold DotDims.lhsIdx
  rw [dif_neg hb, dif_pos hn]
  simp only [Fin.val_cast]
  exact idx_val_congr j _ _ _ _ (by simp [h3, h5])

/-- The right operand's row is the result's column. -/
theorem rhsIdx_row {R K C : ℕ} (d : DotDims ⟨2, ![R, K]⟩ ⟨2, ![C, K]⟩ ⟨2, ![R, C]⟩)
    (h3 : d.lhsNonContracting = [0]) (h4 : d.rhsNonContracting = [0]) (h5 : d.lhsBatch = []) (h6 : d.rhsBatch = [])
    (j : (⟨2, ![R, C]⟩ : Shape).Idx) (k : d.contr.Idx) : (d.rhsIdx j k 0).val = (j 1).val := by
  have hb : (0 : Fin 2) ∉ d.rhsBatch := by rw [h6]; exact List.not_mem_nil
  have hn : (0 : Fin 2) ∈ d.rhsNonContracting := by rw [h4]; exact List.mem_singleton.mpr rfl
  unfold DotDims.rhsIdx
  rw [dif_neg hb, dif_pos hn]
  simp only [Fin.val_cast]
  exact idx_val_congr j _ _ _ _ (by simp [h3, h4, h5])

/-- The sum over the one-axis contraction index, as the sum over k of  lhs(r, k) · rhs(c, k) . -/
theorem contr_sum {R K C : ℕ} (d : DotDims ⟨2, ![R, K]⟩ ⟨2, ![C, K]⟩ ⟨2, ![R, C]⟩)
    (h1 : d.lhsContracting = [1]) (h2 : d.rhsContracting = [1]) (h3 : d.lhsNonContracting = [0])
    (h4 : d.rhsNonContracting = [0]) (h5 : d.lhsBatch = []) (h6 : d.rhsBatch = [])
    (lhs : (⟨2, ![R, K]⟩ : Shape).Idx → EReal) (rhs : (⟨2, ![C, K]⟩ : Shape).Idx → EReal) (r : Fin R) (c : Fin C) :
    ∑ k : d.contr.Idx, lhs (d.lhsIdx (ix2 r c) k) * rhs (d.rhsIdx (ix2 r c) k)
      = ∑ k : Fin K, lhs (ix2 r k) * rhs (ix2 c k) := by
  -- the contraction index has one axis, of extent K
  have hr : d.contr.rank = 1 := by rw [d.rank_contr, h1]; rfl
  have hs : d.contr.size ⟨0, by omega⟩ = K := by
    have h := d.size_contr 0 (by rw [h1]; exact Nat.one_pos)
    rw [h]
    simp [h1]
  -- re-index the sum by that axis's one coordinate
  rw [← Equiv.sum_comp (contrEquiv1 d K hr hs).symm]
  refine Finset.sum_congr rfl fun k _ => ?_
  have hk : (((contrEquiv1 d K hr hs).symm k) ⟨0, by omega⟩ : ℕ) = k.val := contrEquiv1_symm_val d K hr hs k
  -- the left operand is read at (r, k), the right one at (c, k)
  have el : d.lhsIdx (ix2 r c) ((contrEquiv1 d K hr hs).symm k) = ix2 r k := by
    funext a
    match a with
    | ⟨0, _⟩ => exact Fin.ext (lhsIdx_row d h3 h5 (ix2 r c) _)
    | ⟨1, _⟩ => exact Fin.ext ((d.lhsIdx_val_of_single h1 (ix2 r c) _).trans hk)
  have er : d.rhsIdx (ix2 r c) ((contrEquiv1 d K hr hs).symm k) = ix2 c k := by
    funext a
    match a with
    | ⟨0, _⟩ => exact Fin.ext (rhsIdx_row d h3 h4 h5 h6 (ix2 r c) _)
    | ⟨1, _⟩ => exact Fin.ext ((d.rhsIdx_val_of_single h2 (ix2 r c) _).trans hk)
  rw [el, er]

/-- The matrix unit's product into a zero accumulator, at (r, c). -/
theorem matmul_zero_apply {R K C : ℕ} {φ₁ φ₂ : FTy} (d : DotDims ⟨2, ![R, K]⟩ ⟨2, ![C, K]⟩ ⟨2, ![R, C]⟩)
    (h1 : d.lhsContracting = [1]) (h2 : d.rhsContracting = [1]) (h3 : d.lhsNonContracting = [0])
    (h4 : d.rhsNonContracting = [0]) (h5 : d.lhsBatch = []) (h6 : d.rhsBatch = [])
    (prec : Option ContractPrecision) (lhs : FVec Ideal ⟨2, ![R, K]⟩ φ₁) (rhs : FVec Ideal ⟨2, ![C, K]⟩ φ₂)
    (r : Fin R) (c : Fin C) :
    matmul d prec lhs rhs (constant ⟨2, ![R, C]⟩ .f32 0x00000000#32) (ix2 r c)
      = ∑ k : Fin K, lhs (ix2 r k) * rhs (ix2 c k) := by
  show FloatOps.matmul d prec lhs rhs (constant ⟨2, ![R, C]⟩ .f32 0x00000000#32) (ix2 r c) = _
  rw [Ideal.matmul_constant_zero_apply]
  exact contr_sum d h1 h2 h3 h4 h5 h6 lhs rhs r c

/-- The host's general product, at (r, c). -/
theorem dotGeneral_apply {R K C : ℕ} {φ₁ φ₂ : FTy} (d : DotDims ⟨2, ![R, K]⟩ ⟨2, ![C, K]⟩ ⟨2, ![R, C]⟩)
    (h1 : d.lhsContracting = [1]) (h2 : d.rhsContracting = [1]) (h3 : d.lhsNonContracting = [0])
    (h4 : d.rhsNonContracting = [0]) (h5 : d.lhsBatch = []) (h6 : d.rhsBatch = [])
    (prec : Option ContractPrecision) (lhs : FVec Ideal ⟨2, ![R, K]⟩ φ₁) (rhs : FVec Ideal ⟨2, ![C, K]⟩ φ₂)
    (r : Fin R) (c : Fin C) :
    Host.dotGeneral d prec lhs rhs (ix2 r c) = ∑ k : Fin K, lhs (ix2 r k) * rhs (ix2 c k) := by
  simp only [Host.dotGeneral]
  rw [Ideal.dotGeneral_apply]
  exact contr_sum d h1 h2 h3 h4 h5 h6 lhs rhs r c

end Cert.LibRowsProduct

end
-- ==== Proof.RefValue.lean ====
/-
  The reference's result read at an entry (r, c), on the extended reals.

  Every layout step reads its operand at one index: a scalar spread over an array reads the scalar, a vector of row
  statistics kept as a column reads the vector at the row, a column spread over the columns of a matrix reads the column
  in that row. The host's sum over a row is the zero word (the number 0) plus the sum over the row's entries. So the
  column of row means at row r is  mean (row r) , the centred array at (r, k) is  x(r, k) − mean (row r) , and the variance
  column at row r is the sum of squared deviations over the divisor. The divisor is 2000 − 1 = 1999 on the reals, which
  is the word the specification spells for n − 1; it is positive, so the guard on it takes the quotient and the
  not-a-number word of the other branch is never read. The standardized array at (r, k) is then the specification's
  standardized row r at k; the three products are sums over k of a standardized entry times a weight, the biases read
  their own entry, the rectifier is the maximum with 0, and the damped update of the specification is what is left.
-/
import proofs.«145279_j14731737825659_1_alg».proof.Proof.RefTerm
import proofs.«145279_j14731737825659_1_alg».proof.Proof.RowSpec
import proofs.«145279_j14731737825659_1_alg».proof.Proof.LibRowsProduct
import proofs.«145279_j14731737825659_1_alg».proof.Proof.LibBiasRow
import proofs.«145279_j14731737825659_1_alg».proof.Proof.LibDense
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section

open scoped BigOperators

namespace Cert.ReferenceIdeal.RefValue

open Cert.ReferenceIdeal Cert.ReferenceIdeal.Gen Idealize.ShloMosaic Idealize.ShloMosaic.ValueIdx

/-! ## The words 2000 and 1999 -/

/-- The word the programs spell for the row length denotes the real 2000. -/
theorem ofBits_2000 : Ideal.ofBits .f32 0x44FA0000#32 = ((2000 : ℝ) : EReal) := by
  simp [Ideal.ofBits, Ideal.ieee, -EReal.coe_mul]; norm_num

/-- The word the specification spells for the row length less one denotes the real 1999. -/
theorem ofBits_1999 : Ideal.ofBits .f32 0x44F9E000#32 = ((1999 : ℝ) : EReal) := by
  simp [Ideal.ofBits, Ideal.ieee, -EReal.coe_mul]; norm_num

/-! ## Layout steps at an index -/

/-- A scalar spread over a column reads the scalar. -/
theorem scalar_col_apply {α : Type} (x : S_.Idx → α) (r : Fin 8192) (u : Fin 1) :
    broadcastInDim S8192x1 ![] bcast_S_S8192x1 x (ix2 r u) = x ix0 :=
  broadcastInDim_apply ![] bcast_S_S8192x1 x (ix2 r u) ix0 fun a => a.elim0

/-- A scalar spread over the whole array reads the scalar. -/
theorem scalar_full_apply {α : Type} (x : S_.Idx → α) (r : Fin 8192) (c : Fin 2000) :
    broadcastInDim S8192x2000 ![] bcast_S_S8192x2000 x (ix2 r c) = x ix0 :=
  broadcastInDim_apply ![] bcast_S_S8192x2000 x (ix2 r c) ix0 fun a => a.elim0

/-- A vector of row statistics kept as a column reads, in row r, the vector at r. -/
theorem vec_col_apply {α : Type} (v : S8192.Idx → α) (r : Fin 8192) :
    broadcastInDim S8192x1 ![0] bcast_S8192_S8192x1_0 v (ix2 r (0 : Fin 1)) = v (ix1 r) := by
  refine broadcastInDim_apply ![0] bcast_S8192_S8192x1_0 v (ix2 r (0 : Fin 1)) (ix1 r) fun a => ?_
  match a with
  | ⟨0, _⟩ =>
    show r.val = if (8192 : ℕ) = 1 then 0 else r.val
    exact (if_neg (by decide)).symm

/-- A column spread over the columns of the array reads, at (r, k), the column in row r. -/
theorem col_rows_apply {α : Type} (v : S8192x1.Idx → α) (r : Fin 8192) (k : Fin 2000) :
    broadcastInDim S8192x2000 ![0, 1] bcast_S8192x1_S8192x2000_0_1 v (ix2 r k) = v (ix2 r (0 : Fin 1)) := by
  refine broadcastInDim_apply ![0, 1] bcast_S8192x1_S8192x2000_0_1 v (ix2 r k) (ix2 r (0 : Fin 1)) fun a => ?_
  match a with
  | ⟨0, _⟩ =>
    show r.val = if (8192 : ℕ) = 1 then 0 else r.val
    exact (if_neg (by decide)).symm
  | ⟨1, _⟩ => exact (if_pos rfl).symm

/-! ## The row sum, the mean, the centred array -/

/-- The host's sum over a row, from the zero word: the sum of the row's entries. -/
theorem rowSum_apply (x : FVec Ideal S8192x2000 .f32) (r : Fin 8192) :
    Host.reduceAdd x (constant (F := Ideal) S_ .f32 0x00000000#32) reducesTo_S8192x2000_S8192_d1 h_S_ (ix1 r)
      = ∑ k : Fin 2000, (x (ix2 r k) : EReal) := by
  -- the initial value plus the sum over the row's coordinates; the initial value is the zero word
  rw [hostReduceAdd_apply,
    Ideal.hostReduceAdd_single reducesTo_S8192x2000_S8192_d1 (by decide : S8192x2000.Reduces [1] S8192),
    constant_apply, Ideal.ofBits_zero_f32, zero_add]
  -- the index with k inserted on the summed axis is (r, k)
  refine Finset.sum_congr rfl fun k _ => congrArg x ?_
  funext a
  match a with
  | ⟨0, _⟩ => rfl
  | ⟨1, _⟩ => rfl

/-- The column of row means, in row r: the mean of row r. -/
theorem meanCol_apply (x : FVec Ideal S8192x2000 .f32) (r : Fin 8192) :
    RefTerm.meanCol (F := Ideal) x (ix2 r (0 : Fin 1)) = Cert.RowSpec.mean (fun k : Fin 2000 => (x (ix2 r k) : EReal)) := by
  unfold RefTerm.meanCol
  rw [hostDivf_apply, vec_col_apply, rowSum_apply, scalar_col_apply, constant_apply]
  rfl

/-- The centred array at (r, k): the entry less the mean of its row. -/
theorem centred_apply (x : FVec Ideal S8192x2000 .f32) (r : Fin 8192) (k : Fin 2000) :
    RefTerm.centred (F := Ideal) x (ix2 r k)
      = (x (ix2 r k) : EReal) - Cert.RowSpec.mean (fun k : Fin 2000 => (x (ix2 r k) : EReal)) := by
  unfold RefTerm.centred
  rw [subf_apply, col_rows_apply, meanCol_apply]

/-! ## The divisor and its guard -/

/-- The variance's divisor with one degree of freedom given up: 2000 − 1 is the word for 1999. -/
theorem divisor_apply :
    RefTerm.divisor (F := Ideal) (constantI S_ 32 1#32) ix0 = Cert.RowSpec.wLenLessOne := by
  show Ideal.ofBits .f32 0x44FA0000#32 - (((1#32 : BitVec 32).toInt : ℝ) : EReal) = Ideal.ofBits .f32 0x44F9E000#32
  have h1 : (1#32 : BitVec 32).toInt = 1 := by decide
  rw [ofBits_2000, ofBits_1999, h1, ← EReal.coe_sub]
  norm_num

/-- The divisor is positive: the guard's bit is set. -/
theorem guard_apply :
    cmpf .ogt (RefTerm.divisor (F := Ideal) (constantI S_ 32 1#32)) (constant (F := Ideal) S_ .f32 0x00000000#32) ix0
      = 1#1 := by
  rw [cmpf_apply, divisor_apply, constant_apply, Ideal.ofBits_zero_f32]
  show Ideal.cmp .ogt (Ideal.ofBits .f32 0x44F9E000#32) 0 = 1#1
  rw [ofBits_1999]
  have hpos : (0 : EReal) < ((1999 : ℝ) : EReal) := EReal.coe_pos.mpr (by norm_num)
  simp [Ideal.cmp, hpos]

/-- The variance column, in row r: the row's sum of squared deviations over n − 1. -/
theorem varCol_apply (x : FVec Ideal S8192x2000 .f32) (r : Fin 8192) :
    RefTerm.varCol (F := Ideal) x (constantI S_ 32 1#32) (ix2 r (0 : Fin 1))
      = Ideal.div (∑ k : Fin 2000,
            ((x (ix2 r k) : EReal) - Cert.RowSpec.mean (fun k : Fin 2000 => (x (ix2 r k) : EReal)))
              * ((x (ix2 r k) : EReal) - Cert.RowSpec.mean (fun k : Fin 2000 => (x (ix2 r k) : EReal))))
          Cert.RowSpec.wLenLessOne := by
  unfold RefTerm.varCol
  -- the guard's bit is set in every row, so the quotient is kept
  rw [select_apply,
    scalar_col_apply (cmpf .ogt (RefTerm.divisor (F := Ideal) (constantI S_ 32 1#32)) (constant (F := Ideal) S_ .f32 0x00000000#32)) r 0,
    guard_apply, select_one]
  rw [hostDivf_apply, vec_col_apply, rowSum_apply, scalar_col_apply, divisor_apply]
  refine congrArg (fun t => Ideal.div t Cert.RowSpec.wLenLessOne) (Finset.sum_congr rfl fun k _ => ?_)
  rw [mulf_apply, centred_apply]

/-! ## The standardized array -/

/-- The host's square root at an index is the square root of the entry. -/
theorem hostSqrt_apply {s : Shape} (v : FVec Ideal s .f32) (i : s.Idx) : Host.sqrt v i = Ideal.sqrt (v i) := rfl

/-- The standardized array at (r, k): the specification's standardized row r at k. -/
theorem stdz_apply (x : FVec Ideal S8192x2000 .f32) (r : Fin 8192) (k : Fin 2000) :
    RefTerm.stdz (F := Ideal) x (ix2 r k)
      = Cert.RowSpec.standardized (fun k : Fin 2000 => (x (ix2 r k) : EReal)) k := by
  unfold RefTerm.stdz
  rw [hostDivf_apply, centred_apply, col_rows_apply, addf_apply, hostSqrt_apply, varCol_apply, scalar_col_apply,
    constant_apply]
  rfl

/-! ## Products, biases, the drive -/

/-- A product with a weight matrix at (r, c): the sum over k of  l(r, k) · w(c, k) . -/
theorem prod_apply (l : FVec Ideal S8192x2000 .f32) (w : FVec Ideal S2000x2000 .f32) (r : Fin 8192) (c : Fin 2000) :
    RefTerm.prod (F := Ideal) l w (ix2 r c) = ∑ k : Fin 2000, (l (ix2 r k) : EReal) * w (ix2 c k) :=
  Cert.LibRowsProduct.dotGeneral_apply (R := 8192) (K := 2000) (C := 2000)
    dot_S8192x2000_S2000x2000_S8192x2000_1_1_0_0_n_n rfl rfl rfl rfl rfl rfl none l w r c

/-- A bias laid out over every row reads, at (r, c), its entry c. -/
theorem biasRows_apply (b : FVec Ideal S2000 .f32) (r : Fin 8192) (c : Fin 2000) :
    RefTerm.biasRows (F := Ideal) b (ix2 r c) = b (ix1 c) :=
  Cert.BiasRow.layout_layout_apply (R := 8192) (C := 2000) bcast_S2000_S1x2000_1 bcast_S1x2000_S8192x2000_0_1 b r c

/-- What drives the layer at (r, c): the specification's drive of output c by the three rows r. -/
theorem pre_apply (a0 a1 a2 : FVec Ideal S8192x2000 .f32) (a3 : FVec Ideal S2000x2000 .f32) (a4 : FVec Ideal S2000 .f32)
    (a5 : FVec Ideal S2000x2000 .f32) (a6 : FVec Ideal S2000 .f32) (a7 : FVec Ideal S2000x2000 .f32) (a8 : FVec Ideal S2000 .f32)
    (r : Fin 8192) (c : Fin 2000) :
    RefTerm.pre (F := Ideal) a0 a1 a2 a3 a4 a5 a6 a7 a8 (ix2 r c)
      = Cert.RowSpec.drive (fun k : Fin 2000 => (a0 (ix2 r k) : EReal)) (fun k => a1 (ix2 r k)) (fun k => a2 (ix2 r k))
          (fun c k => a3 (ix2 c k)) (fun c k => a5 (ix2 c k)) (fun c k => a7 (ix2 c k))
          (fun c => a4 (ix1 c)) (fun c => a6 (ix1 c)) (fun c => a8 (ix1 c)) c := by
  unfold RefTerm.pre
  rw [addf_apply, addf_apply, addf_apply, addf_apply, addf_apply, biasRows_apply, biasRows_apply, biasRows_apply,
    prod_apply, prod_apply, prod_apply]
  -- the products' summands agree term by term
  have hs : ∀ (x : FVec Ideal S8192x2000 .f32) (w : FVec Ideal S2000x2000 .f32),
      (∑ k : Fin 2000, (RefTerm.stdz (F := Ideal) x (ix2 r k) : EReal) * w (ix2 c k))
        = ∑ k : Fin 2000, Cert.RowSpec.standardized (fun k : Fin 2000 => (x (ix2 r k) : EReal)) k * w (ix2 c k) :=
    fun x w => Finset.sum_congr rfl fun k _ => by rw [stdz_apply]
  rw [hs, hs, hs]
  rfl

/-! ## The result -/

/-- The reference's result at (r, c) is the specification's layer at (r, c). -/
theorem refOut_apply (a0 a1 a2 : FVec Ideal S8192x2000 .f32) (a3 : FVec Ideal S2000x2000 .f32) (a4 : FVec Ideal S2000 .f32)
    (a5 : FVec Ideal S2000x2000 .f32) (a6 : FVec Ideal S2000 .f32) (a7 : FVec Ideal S2000x2000 .f32) (a8 : FVec Ideal S2000 .f32)
    (r : Fin 8192) (c : Fin 2000) :
    RefTerm.refOut (F := Ideal) a0 a1 a2 a3 a4 a5 a6 a7 a8 (ix2 r c) = Cert.RowSpec.layer a0 a1 a2 a3 a5 a7 a4 a6 a8 r c := by
  unfold RefTerm.refOut
  rw [addf_apply, mulf_apply, mulf_apply, scalar_full_apply, scalar_full_apply, constant_apply, constant_apply,
    Cert.Dense.host_relu_apply, pre_apply]
  rfl

end Cert.ReferenceIdeal.RefValue

end
-- ==== Proof.lean ====
/-
  The certificate: the kernel and the reference compute the same layer.

  Both programs standardize each row of the previous layer's, the layer's own and the next layer's activations by the
  row's mean and sample spread (plus ε), send the three standardized rows through the forward, backward and lateral
  weights, add the biases, rectify, and mix the result with the own activation (damping 0.7). The kernel does this
  128 rows at a time over a grid of 64 points, on weights the host has transposed beforehand; the reference does it on
  the whole batch. On the extended reals the two results are the same function of the arguments, `RowSpec.layer`, entry
  by entry: the kernel's result array is read off its run block by block (KernelValue), the reference's result is its
  run's term read at an index (RefRun, RefValue). The same sums are taken in the same order on both sides, so no law
  of arithmetic is needed and the finiteness of the inputs is not used; the reference's divisor  n − ddof  is the
  kernel's literal  n − 1 . The three frames are the runs with the results dropped; the kernel's idealization rewrote
  nothing, so there is nothing to preserve.
-/
import proofs.«145279_j14731737825659_1_alg».proof.Defs
import proofs.«145279_j14731737825659_1_alg».proof.Proof.Gen.Kernel
import proofs.«145279_j14731737825659_1_alg».proof.Proof.Gen.Kernel.Frame
import proofs.«145279_j14731737825659_1_alg».proof.Proof.Gen.KernelIdeal
import proofs.«145279_j14731737825659_1_alg».proof.Proof.Gen.KernelIdeal.Frame
import proofs.«145279_j14731737825659_1_alg».proof.Proof.Gen.ReferenceIdeal
import proofs.«145279_j14731737825659_1_alg».proof.Proof.Gen.Pre_finite_inputs
import proofs.«145279_j14731737825659_1_alg».proof.Proof.KernelValue
import proofs.«145279_j14731737825659_1_alg».proof.Proof.RefRun
import proofs.«145279_j14731737825659_1_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel as printed runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The kernel's idealization rewrote no operation. -/
theorem preserves : Cert.preserves_Kernel_KernelIdeal := trivial

/-- On the extended reals, from memories that agree on the arguments, both programs end with the layer of the
    arguments in their result arrays. -/
theorem algebraic : Cert.algebraic_KernelIdeal_ReferenceIdeal := by
  intro m ρ m' ρ' _ hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.RefRun.run (F := Ideal) m' ρ')
  obtain ⟨h0, h1, h2, h3, h4, h5, h6, h7, h8⟩ := hagree c
  rw [h0, h1, h2, h3, h4, h5, h6, h7, h8]
  funext i
  obtain ⟨r, k, rfl⟩ : ∃ (r : Fin 8192) (k : Fin 2000), i = ix2 r k := ⟨i 0, i 1, eq_ix2 i⟩
  exact Cert.ReferenceIdeal.RefValue.refOut_apply _ _ _ _ _ _ _ _ _ r k

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
